-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x128 .f32) (main_arg15 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x64 .f32) (main_arg2 : IVec S800000 32) (main_arg3 : IVec S800000 32) (main_arg4 : FVec F S320x256 .f32) (main_arg5 : FVec F S256 .f32) (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x256 .f32 := Host.absf main_arg4
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S4000x320 : Shape := ⟨2, ![4000, 320]⟩
abbrev S4000x128 : Shape := ⟨2, ![4000, 128]⟩
abbrev S4000x256 : Shape := ⟨2, ![4000, 256]⟩
abbrev S1x256 : Shape := ⟨2, ![1, 256]⟩
abbrev S1x128 : Shape := ⟨2, ![1, 128]⟩
abbrev S50000x256 : Shape := ⟨2, ![50000, 256]⟩
abbrev S5000x256 : Shape := ⟨2, ![5000, 256]⟩
abbrev S5000x128 : Shape := ⟨2, ![5000, 128]⟩

abbrev nBuf : Space → Nat
  | .hbm => 42
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x320, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x256, .f32⟩
  | .hbm, ⟨41, _⟩ => ⟨S50000x128, .f32⟩
  | .local _ .vmem, ⟨0, _⟩ => ⟨S4000x320, .f32⟩
  | .local _ .vmem, ⟨1, _⟩ => ⟨S4000x320, .f32⟩
  | .local _ .vmem, ⟨2, _⟩ => ⟨S320x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  bitsLt_bf16_f32 : FTy.bits .bf16 < FTy.bits .f32
  inb_S320x256_S320x256_0_0 : ∀ a, (![0, 0] : Fin 2 → Nat) a + S320x256.size a ≤ S320x256.size a
  h_S320x256 : 0 < S320x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x128_S800000x1_S800000x128_1_0_n_n_0_1_1128_wf : GatherDims.WF S50000x128 S800000x1 S800000x128 [1] [0] [] [0] [] 1 ![1, 128]
  dot_S4000x320_S320x256_S4000x256_1_0_0_1_n_n_wf : DotDims.WF S4000x320 S320x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  scatter_S50000x128_S800000x1_S800000x128_1_0_0_1_wf : ScatterDims.WF S50000x128 S800000x1 S800000x128 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x320.size a ≤ S800000x320.size a
  hwx0_0 : ∀ i : grid0.Coords, EltTy.bits .f32 = 32 ∨ (Rect.block (s := S800000x320) S4000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x256.size a ≤ S320x256.size a
  hwx0_1 : ∀ i : grid0.Coords, EltTy.bits .f32 = 32 ∨ (Rect.block (s := S320x256) S320x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x320_S320x256_S4000x256_1_0_0_1_n_n : DotDims S4000x320 S320x256 S4000x256 where
  lhsContracting := [1]
  rhsContracting := [0]
  lhsNonContracting := [0]
  rhsNonContracting := [1]
  lhsBatch := []
  rhsBatch := []
  wf := dot_S4000x320_S320x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v14) S4000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S320x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S800000x256 : Shape := ⟨2, ![800000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x320, .f32⟩
  | .hbm, ⟨35, _⟩ => ⟨S800000x256, .f32⟩
  | .hbm, ⟨36, _⟩ => ⟨S1x256, .f32⟩
  | .hbm, ⟨37, _⟩ => ⟨S800000x256, .f32⟩
  | .hbm, ⟨38, _⟩ => ⟨S800000x256, .f32⟩
  | .hbm, ⟨39, _⟩ => ⟨S_, .f32⟩
  | .hbm, ⟨40, _⟩ => ⟨S800000x256, .f32⟩
  | .hbm, ⟨41, _⟩ => ⟨S800000x256, .f32⟩
  | .hbm, ⟨42, _⟩ => ⟨S800000x256, .f32⟩
  | .hbm, ⟨43, _⟩ => ⟨S1x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S800000x256, .f32⟩
  | .hbm, ⟨48, _⟩ => ⟨S800000x256, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x320_S320x256_S800000x256_1_0_0_1_n_n_wf : DotDims.WF S800000x320 S320x256 S800000x256 [1] [0] [0] [1] [] []
  dot_S800000x256_S256x256_S800000x256_1_0_0_1_n_n_wf : DotDims.WF S800000x256 S256x256 S800000x256 [1] [0] [0] [1] [] []
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x256_S800000x256_1_0_0_1_n_n : DotDims S800000x320 S320x256 S800000x256 where
  lhsContracting := [1]
  rhsContracting := [0]
  lhsNonContracting := [0]
  rhsNonContracting := [1]
  lhsBatch := []
  rhsBatch := []
  wf := dot_S800000x320_S320x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.EdgeRegion.lean ====
/-
  The edge network's launch (the first of the two kernel calls), generic in the float instance: what its body does to the
  staging buffers at one grid point, and the data the pipeline's launch rule asks for.

  The call has eight windows. Window 0 is the batch of edge rows, moving one block of 4000 rows per grid point; windows
  1 to 6 are the three weight matrices and the three biases, each one block that is the whole array and stays at block
  index zero; window 7 is the result, one block of 4000 rows per point, written back at every point. At a point the body
  loads the seven input blocks whole, loads the result's buffer (a value it never uses), and stores ONE value, a
  function of the seven loaded blocks, over the whole of the result's buffer. So after the body every input buffer is
  as it was found and the result's buffer holds that function of the input blocks; nothing is kept between points, no
  semaphore of the kernel's own is touched, nothing is owed.
-/
import proofs.«180321_j72559177498912_1_alg».proof.Proof.Gen.KernelIdeal.Launch
import proofs.«180321_j72559177498912_1_alg».proof.Proof.Gen.KernelIdeal.Skeleton
import proofs.«180321_j72559177498912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def eblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it there or
    not: where it did not, the block index has not moved since the fetch and the body leaves the buffer as found. -/

theorem efound0 {c : Dev nD} (dat : Dat τ (Elt F) Unit ℕ (UR sig nD τ) ℕ cfg0 c) (hA : dat.A 0 = V c (Pipeline.arrRef spec0 0))
    (hafter : ∀ t, dat.after 0 t = eblk V c 0 t) (t : Fin cfg0.N) (d) : dat.before 0 t d = eblk V c 0 t :=
  (dat.before_in_eq_fetched 0 rfl (fun _ => rfl) (fun _ _ _ => rfl) (fun t => by rw [hafter]; unfold Dat.blockOf eblk; rw [hA]; try rfl) t d).trans
    (by unfold Dat.fetched Dat.blockOf eblk; rw [hA]; try rfl)
theorem efound1 {c : Dev nD} (dat : Dat τ (Elt F) Unit ℕ (UR sig nD τ) ℕ cfg0 c) (hA : dat.A 1 = V c (Pipeline.arrRef spec0 1))
    (hafter : ∀ t, dat.after 1 t = eblk V c 1 t) (t : Fin cfg0.N) (d) : dat.before 1 t d = eblk V c 1 t :=
  (dat.before_in_eq_fetched 1 rfl (fun _ => rfl) (fun _ _ _ => rfl) (fun t => by rw [hafter]; unfold Dat.blockOf eblk; rw [hA]; try rfl) t d).trans
    (by unfold Dat.fetched Dat.blockOf eblk; rw [hA]; try rfl)
theorem efound2 {c : Dev nD} (dat : Dat τ (Elt F) Unit ℕ (UR sig nD τ) ℕ cfg0 c) (hA : dat.A 2 = V c (Pipeline.arrRef spec0 2))
    (hafter : ∀ t, dat.after 2 t = eblk V c 2 t) (t : Fin cfg0.N) (d) : dat.before 2 t d = eblk V c 2 t :=
  (dat.before_in_eq_fetched 2 rfl (fun _ => rfl) (fun _ _ _ => rfl) (fun t => by rw [hafter]; unfold Dat.blockOf eblk; rw [hA]; try rfl) t d).trans
    (by unfold Dat.fetched Dat.blockOf eblk; rw [hA]; try rfl)
theorem efound3 {c : Dev nD} (dat : Dat τ (Elt F) Unit ℕ (UR sig nD τ) ℕ cfg0 c) (hA : dat.A 3 = V c (Pipeline.arrRef spec0 3))
    (hafter : ∀ t, dat.after 3 t = eblk V c 3 t) (t : Fin cfg0.N) (d) : dat.before 3 t d = eblk V c 3 t :=
  (dat.before_in_eq_fetched 3 rfl (fun _ => rfl) (fun _ _ _ => rfl) (fun t => by rw [hafter]; unfold Dat.blockOf eblk; rw [hA]; try rfl) t d).trans
    (by unfold Dat.fetched Dat.blockOf eblk; rw [hA]; try rfl)
theorem efound4 {c : Dev nD} (dat : Dat τ (Elt F) Unit ℕ (UR sig nD τ) ℕ cfg0 c) (hA : dat.A 4 = V c (Pipeline.arrRef spec0 4))
    (hafter : ∀ t, dat.after 4 t = eblk V c 4 t) (t : Fin cfg0.N) (d) : dat.before 4 t d = eblk V c 4 t :=
  (dat.before_in_eq_fetched 4 rfl (fun _ => rfl) (fun _ _ _ => rfl) (fun t => by rw [hafter]; unfold Dat.blockOf eblk; rw [hA]; try rfl) t d).trans
    (by unfold Dat.fetched Dat.blockOf eblk; rw [hA]; try rfl)
theorem efound5 {c : Dev nD} (dat : Dat τ (Elt F) Unit ℕ (UR sig nD τ) ℕ cfg0 c) (hA : dat.A 5 = V c (Pipeline.arrRef spec0 5))
    (hafter : ∀ t, dat.after 5 t = eblk V c 5 t) (t : Fin cfg0.N) (d) : dat.before 5 t d = eblk V c 5 t :=
  (dat.before_in_eq_fetched 5 rfl (fun _ => rfl) (fun _ _ _ => rfl) (fun t => by rw [hafter]; unfold Dat.blockOf eblk; rw [hA]; try rfl) t d).trans
    (by unfold Dat.fetched Dat.blockOf eblk; rw [hA]; try rfl)
theorem efound6 {c : Dev nD} (dat : Dat τ (Elt F) Unit ℕ (UR sig nD τ) ℕ cfg0 c) (hA : dat.A 6 = V c (Pipeline.arrRef spec0 6))
    (hafter : ∀ t, dat.after 6 t = eblk V c 6 t) (t : Fin cfg0.N) (d) : dat.before 6 t d = eblk V c 6 t :=
  (dat.before_in_eq_fetched 6 rfl (fun _ => rfl) (fun _ _ _ => rfl) (fun t => by rw [hafter]; unfold Dat.blockOf eblk; rw [hA]; try rfl) t d).trans
    (by unfold Dat.fetched Dat.blockOf eblk; rw [hA]; try rfl)

/-! ## The body's accesses: every load and the one store take a buffer whole -/

abbrev rX : Rect S4000x320 := Rect.unit (s := S4000x320) ![0, 0] S4000x320.size inb_S4000x320_S4000x320_0_0
abbrev rW0 : Rect S320x256 := Rect.unit (s := S320x256) ![0, 0] S320x256.size inb_S320x256_S320x256_0_0
abbrev rB : Rect S256 := Rect.unit (s := S256) ![0] S256.size inb_S256_S256_0
abbrev rW1 : Rect S256x256 := Rect.unit (s := S256x256) ![0, 0] S256x256.size inb_S256x256_S256x256_0_0
abbrev rW2 : Rect S256x128 := Rect.unit (s := S256x128) ![0, 0] S256x128.size inb_S256x128_S256x128_0_0
abbrev rB2 : Rect S128 := Rect.unit (s := S128) ![0] S128.size inb_S128_S128_0
abbrev rO : Rect S4000x128 := Rect.unit (s := S4000x128) ![0, 0] S4000x128.size inb_S4000x128_S4000x128_0_0

/-! ## What the body leaves in the result's buffer -/

/-- The result's staging buffer after the body, from the seven input blocks: its one store, of the three-layer value of
    the loaded blocks, over the whole buffer. -/
def eout (x0 : Vec F S4000x320 .f32) (x1 : Vec F S320x256 .f32) (x2 : Vec F S256 .f32) (x3 : Vec F S256x256 .f32)
    (x4 : Vec F S256 .f32) (x5 : Vec F S256x128 .f32) (x6 : Vec F S128 .f32) : Vec F S4000x128 .f32 :=
  View.canon [⟨rO, k0_pay1 (View.ld x0 rX) (View.ld x1 rW0) (View.ld x2 rB) (View.ld x3 rW1) (View.ld x4 rB) (View.ld x5 rW2) (View.ld x6 rB2)⟩]

/-- The one store covers the buffer. -/
theorem ecover (p0 : Vec F S4000x128 .f32) (y : S4000x128.Idx) :
    ∃ pc ∈ ([⟨rO, p0⟩] : List (View.Piece (Elt F) S4000x128 .f32)), y ∈ pc.1.set :=
  View.cover_of_tiled [⟨rO, p0⟩] S4000x128.size (by rfl) y

/-! ## The body's triple -/

set_option maxHeartbeats 2000000 in
/-- The body on whole staging memrefs, the inputs' at contents `x0 … x6` and the result's at anything, runs to the
    continuation holding the inputs' as they were and the result's at `eout` of the inputs'. -/
theorem ekernel (c : Dev nD) (E : Set ℕ) (i : grid0.Coords)
    (arg1 : Memref sig .tc .vmem S4000x320 .f32) (harg1 : arg1.IsWhole) (arg2 : Memref sig .tc .vmem S320x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x128 .f32) (harg6 : arg6.IsWhole)
    (arg7 : Memref sig .tc .vmem S128 .f32) (harg7 : arg7.IsWhole) (arg8 : Memref sig .tc .vmem S4000x128 .f32) (harg8 : arg8.IsWhole)
    (x0 : Vec F S4000x320 .f32) (x1 : Vec F S320x256 .f32) (x2 : Vec F S256 .f32) (x3 : Vec F S256x256 .f32)
    (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (eout x0 x1 x2 x3 x4 x5 x6)) -∗ K ⟨⟩))
      ⊢ wp frame (wpE (defs₀ (F := F)) Variants.none c none) E (cc0__mlp3_kernel i arg1 harg1 arg2 harg2 arg3 harg3 arg4 harg4 arg5 harg5 arg6 harg6 arg7 harg7 arg8 harg8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (ecover _)

/-! ## The pipeline's proof data -/

/-- The proof data of the call on core `c`: the arrays as the call finds them; after the body at point `t` each input's
    buffer at its block and the result's at `eout` of the input blocks; the invariant is the part of the core the body
    neither uses nor describes; nothing owed; full shares. -/
def edat (c : Dev nD) : Dat τ (Elt F) Unit ℕ (UR sig nD τ) ℕ cfg0 c where
  A w := V c (Pipeline.arrRef spec0 w)
  after w t := match w with
    | ⟨0, _⟩ => eblk V c 0 t
    | ⟨1, _⟩ => eblk V c 1 t
    | ⟨2, _⟩ => eblk V c 2 t
    | ⟨3, _⟩ => eblk V c 3 t
    | ⟨4, _⟩ => eblk V c 4 t
    | ⟨5, _⟩ => eblk V c 5 t
    | ⟨6, _⟩ => eblk V c 6 t
    | ⟨7, _⟩ => eout (eblk V c 0 t) (eblk V c 1 t) (eblk V c 2 t) (eblk V c 3 t) (eblk V c 4 t) (eblk V c 5 t) (eblk V c 6 t)
  Φ _ := Pipeline.ΦA spec0 c
  q _ := fullShare
  owed _ := 0

theorem edat_A (c : Dev nD) (w : Fin cfg0.W) : (edat V c).A w = V c (Pipeline.arrRef spec0 w) := by
  dsimp only [edat]

theorem eafter0 (c : Dev nD) (t : Fin cfg0.N) : (edat V c).after 0 t = eblk V c 0 t := by dsimp only [edat]
theorem eafter1 (c : Dev nD) (t : Fin cfg0.N) : (edat V c).after 1 t = eblk V c 1 t := by dsimp only [edat]
theorem eafter2 (c : Dev nD) (t : Fin cfg0.N) : (edat V c).after 2 t = eblk V c 2 t := by dsimp only [edat]
theorem eafter3 (c : Dev nD) (t : Fin cfg0.N) : (edat V c).after 3 t = eblk V c 3 t := by dsimp only [edat]
theorem eafter4 (c : Dev nD) (t : Fin cfg0.N) : (edat V c).after 4 t = eblk V c 4 t := by dsimp only [edat]
theorem eafter5 (c : Dev nD) (t : Fin cfg0.N) : (edat V c).after 5 t = eblk V c 5 t := by dsimp only [edat]
theorem eafter6 (c : Dev nD) (t : Fin cfg0.N) : (edat V c).after 6 t = eblk V c 6 t := by dsimp only [edat]
/-- What the body leaves in the result's buffer at point `t`. -/
theorem eafter7 (c : Dev nD) (t : Fin cfg0.N) : (edat V c).after 7 t
    = eout (eblk V c 0 t) (eblk V c 1 t) (eblk V c 2 t) (eblk V c 3 t) (eblk V c 4 t) (eblk V c 5 t) (eblk V c 6 t) := by dsimp only [edat]

theorem ebefore0 (c : Dev nD) (t : Fin cfg0.N) (d) : (edat V c).before 0 t d = eblk V c 0 t := efound0 V (edat V c) (edat_A V c 0) (eafter0 V c) t d
theorem ebefore1 (c : Dev nD) (t : Fin cfg0.N) (d) : (edat V c).before 1 t d = eblk V c 1 t := efound1 V (edat V c) (edat_A V c 1) (eafter1 V c) t d
theorem ebefore2 (c : Dev nD) (t : Fin cfg0.N) (d) : (edat V c).before 2 t d = eblk V c 2 t := efound2 V (edat V c) (edat_A V c 2) (eafter2 V c) t d
theorem ebefore3 (c : Dev nD) (t : Fin cfg0.N) (d) : (edat V c).before 3 t d = eblk V c 3 t := efound3 V (edat V c) (edat_A V c 3) (eafter3 V c) t d
theorem ebefore4 (c : Dev nD) (t : Fin cfg0.N) (d) : (edat V c).before 4 t d = eblk V c 4 t := efound4 V (edat V c) (edat_A V c 4) (eafter4 V c) t d
theorem ebefore5 (c : Dev nD) (t : Fin cfg0.N) (d) : (edat V c).before 5 t d = eblk V c 5 t := efound5 V (edat V c) (edat_A V c 5) (eafter5 V c) t d
theorem ebefore6 (c : Dev nD) (t : Fin cfg0.N) (d) : (edat V c).before 6 t d = eblk V c 6 t := efound6 V (edat V c) (edat_A V c 6) (eafter6 V c) t d

/-! ## The body obligation, at a generic point -/

/-- What the body is called with at point `t`, the windows one by one, -/
def ePre (c : Dev nD) (t : Fin cfg0.N) : sProp 𝕄 :=
  iprop((edat V c).Φ t.castSucc ∗ (edat V c).owesAt () t.castSucc
    ∗ (∃ d, owns (c : Thread nD τ) (st0_0 t) fullShare ((edat V c).before 0 t d))
    ∗ (∃ d, owns (c : Thread nD τ) (st0_1 t) fullShare ((edat V c).before 1 t d))
    ∗ (∃ d, owns (c : Thread nD τ) (st0_2 t) fullShare ((edat V c).before 2 t d))
    ∗ (∃ d, owns (c : Thread nD τ) (st0_3 t) fullShare ((edat V c).before 3 t d))
    ∗ (∃ d, owns (c : Thread nD τ) (st0_4 t) fullShare ((edat V c).before 4 t d))
    ∗ (∃ d, owns (c : Thread nD τ) (st0_5 t) fullShare ((edat V c).before 5 t d))
    ∗ (∃ d, owns (c : Thread nD τ) (st0_6 t) fullShare ((edat V c).before 6 t d))
    ∗ (∃ d, owns (c : Thread nD τ) (st0_7 t) fullShare ((edat V c).before 7 t d)))

/-- and what it returns. -/
def ePost (c : Dev nD) (t : Fin cfg0.N) : sProp 𝕄 :=
  iprop((edat V c).Φ t.succ ∗ (edat V c).owesAt () t.succ
    ∗ owns (c : Thread nD τ) (st0_0 t) fullShare ((edat V c).after 0 t)
    ∗ owns (c : Thread nD τ) (st0_1 t) fullShare ((edat V c).after 1 t)
    ∗ owns (c : Thread nD τ) (st0_2 t) fullShare ((edat V c).after 2 t)
    ∗ owns (c : Thread nD τ) (st0_3 t) fullShare ((edat V c).after 3 t)
    ∗ owns (c : Thread nD τ) (st0_4 t) fullShare ((edat V c).after 4 t)
    ∗ owns (c : Thread nD τ) (st0_5 t) fullShare ((edat V c).after 5 t)
    ∗ owns (c : Thread nD τ) (st0_6 t) fullShare ((edat V c).after 6 t)
    ∗ owns (c : Thread nD τ) (st0_7 t) fullShare ((edat V c).after 7 t))

/-- The body at any point: the inputs' memrefs hold their blocks, so `ekernel` applies; the invariant and the core's
    dues pass through unread. -/
theorem ebody (c : Dev nD) (t : Fin cfg0.N) :
    ePre V c t ⊢ wp frame (wpE (defs₀ (F := F)) Variants.none c none) Set.univ (bodyAt0 t) (fun _ => ePost V c t) := by
  unfold ePre ePost bodyAt0
  simp only [ebefore0, ebefore1, ebefore2, ebefore3, ebefore4, ebefore5, ebefore6]
  rw [show (edat V c).Φ t.succ = (edat V c).Φ t.castSucc from rfl,
    show (edat V c).owesAt () t.succ = (edat V c).owesAt () t.castSucc from rfl,
    eafter0, eafter1, eafter2, eafter3, eafter4, eafter5, eafter6, eafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (ekernel c Set.univ _ _ _ _ _ _ _ _ _ _ _ _ _ _ _ _ _ (eblk V c 0 t) (eblk V c 1 t) (eblk V c 2 t) (eblk V c 3 t) (eblk V c 4 t) (eblk V c 5 t) (eblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem e_body_obligation (c : Dev nD) : BodyObligation (edat (F := F) V c) (defs₀ (F := F)) Variants.none () Set.univ := fun t => by
  rw [bigSep_W0, bigSep_W0]
  exact ebody V c t

end Cert.KernelIdeal.Hand

end
-- ==== Proof.NodeRegion.lean ====
/-
  The node network's launch (the second of the two kernel calls), generic in the float instance: what its body does to the
  staging buffers at one grid point, and the data the pipeline's launch rule asks for.

  The call has eight windows. Window 0 is the batch of node rows, moving one block of 5000 rows per grid point; windows
  1 to 6 are the three weight matrices and the three biases, each one block that is the whole array and stays at block
  index zero; window 7 is the result, one block of 5000 rows per point, written back at every point. At a point the body
  loads the seven input blocks whole, loads the result's buffer (a value it never uses), and stores ONE value, a
  function of the seven loaded blocks, over the whole of the result's buffer. So after the body every input buffer is
  as it was found and the result's buffer holds that function of the input blocks; nothing is kept between points, no
  semaphore of the kernel's own is touched, nothing is owed.
-/
import proofs.«180321_j72559177498912_1_alg».proof.Proof.Gen.KernelIdeal.Launch
import proofs.«180321_j72559177498912_1_alg».proof.Proof.Gen.KernelIdeal.Skeleton
import proofs.«180321_j72559177498912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def nblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it there or
    not: where it did not, the block index has not moved since the fetch and the body leaves the buffer as found. -/

theorem nfound0 {c : Dev nD} (dat : Dat τ (Elt F) Unit ℕ (UR sig nD τ) ℕ cfg1 c) (hA : dat.A 0 = V c (Pipeline.arrRef spec1 0))
    (hafter : ∀ t, dat.after 0 t = nblk V c 0 t) (t : Fin cfg1.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)
theorem nfound1 {c : Dev nD} (dat : Dat τ (Elt F) Unit ℕ (UR sig nD τ) ℕ cfg1 c) (hA : dat.A 1 = V c (Pipeline.arrRef spec1 1))
    (hafter : ∀ t, dat.after 1 t = nblk V c 1 t) (t : Fin cfg1.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)
theorem nfound2 {c : Dev nD} (dat : Dat τ (Elt F) Unit ℕ (UR sig nD τ) ℕ cfg1 c) (hA : dat.A 2 = V c (Pipeline.arrRef spec1 2))
    (hafter : ∀ t, dat.after 2 t = nblk V c 2 t) (t : Fin cfg1.N) (d) : dat.before 2 t d = nblk V c 2 t :=
  (dat.before_in_eq_fetched 2 rfl (fun _ => rfl) (fun _ _ _ => rfl) (fun t => by rw [hafter]; unfold Dat.blockOf nblk; rw [hA]; try rfl) t d).trans
    (by unfold Dat.fetched Dat.blockOf nblk; rw [hA]; try rfl)
theorem nfound3 {c : Dev nD} (dat : Dat τ (Elt F) Unit ℕ (UR sig nD τ) ℕ cfg1 c) (hA : dat.A 3 = V c (Pipeline.arrRef spec1 3))
    (hafter : ∀ t, dat.after 3 t = nblk V c 3 t) (t : Fin cfg1.N) (d) : dat.before 3 t d = nblk V c 3 t :=
  (dat.before_in_eq_fetched 3 rfl (fun _ => rfl) (fun _ _ _ => rfl) (fun t => by rw [hafter]; unfold Dat.blockOf nblk; rw [hA]; try rfl) t d).trans
    (by unfold Dat.fetched Dat.blockOf nblk; rw [hA]; try rfl)
theorem nfound4 {c : Dev nD} (dat : Dat τ (Elt F) Unit ℕ (UR sig nD τ) ℕ cfg1 c) (hA : dat.A 4 = V c (Pipeline.arrRef spec1 4))
    (hafter : ∀ t, dat.after 4 t = nblk V c 4 t) (t : Fin cfg1.N) (d) : dat.before 4 t d = nblk V c 4 t :=
  (dat.before_in_eq_fetched 4 rfl (fun _ => rfl) (fun _ _ _ => rfl) (fun t => by rw [hafter]; unfold Dat.blockOf nblk; rw [hA]; try rfl) t d).trans
    (by unfold Dat.fetched Dat.blockOf nblk; rw [hA]; try rfl)
theorem nfound5 {c : Dev nD} (dat : Dat τ (Elt F) Unit ℕ (UR sig nD τ) ℕ cfg1 c) (hA : dat.A 5 = V c (Pipeline.arrRef spec1 5))
    (hafter : ∀ t, dat.after 5 t = nblk V c 5 t) (t : Fin cfg1.N) (d) : dat.before 5 t d = nblk V c 5 t :=
  (dat.before_in_eq_fetched 5 rfl (fun _ => rfl) (fun _ _ _ => rfl) (fun t => by rw [hafter]; unfold Dat.blockOf nblk; rw [hA]; try rfl) t d).trans
    (by unfold Dat.fetched Dat.blockOf nblk; rw [hA]; try rfl)
theorem nfound6 {c : Dev nD} (dat : Dat τ (Elt F) Unit ℕ (UR sig nD τ) ℕ cfg1 c) (hA : dat.A 6 = V c (Pipeline.arrRef spec1 6))
    (hafter : ∀ t, dat.after 6 t = nblk V c 6 t) (t : Fin cfg1.N) (d) : dat.before 6 t d = nblk V c 6 t :=
  (dat.before_in_eq_fetched 6 rfl (fun _ => rfl) (fun _ _ _ => rfl) (fun t => by rw [hafter]; unfold Dat.blockOf nblk; rw [hA]; try rfl) t d).trans
    (by unfold Dat.fetched Dat.blockOf nblk; rw [hA]; try rfl)

/-! ## The body's accesses: every load and the one store take a buffer whole -/

abbrev sX : Rect S5000x256 := Rect.unit (s := S5000x256) ![0, 0] S5000x256.size inb_S5000x256_S5000x256_0_0
abbrev sW0 : Rect S256x256 := Rect.unit (s := S256x256) ![0, 0] S256x256.size inb_S256x256_S256x256_0_0
abbrev sB : Rect S256 := Rect.unit (s := S256) ![0] S256.size inb_S256_S256_0
abbrev sW1 : Rect S256x256 := Rect.unit (s := S256x256) ![0, 0] S256x256.size inb_S256x256_S256x256_0_0
abbrev sW2 : Rect S256x128 := Rect.unit (s := S256x128) ![0, 0] S256x128.size inb_S256x128_S256x128_0_0
abbrev sB2 : Rect S128 := Rect.unit (s := S128) ![0] S128.size inb_S128_S128_0
abbrev sO : Rect S5000x128 := Rect.unit (s := S5000x128) ![0, 0] S5000x128.size inb_S5000x128_S5000x128_0_0

/-! ## What the body leaves in the result's buffer -/

/-- The result's staging buffer after the body, from the seven input blocks: its one store, of the three-layer value of
    the loaded blocks, over the whole buffer. -/
def nout (x0 : Vec F S5000x256 .f32) (x1 : Vec F S256x256 .f32) (x2 : Vec F S256 .f32) (x3 : Vec F S256x256 .f32)
    (x4 : Vec F S256 .f32) (x5 : Vec F S256x128 .f32) (x6 : Vec F S128 .f32) : Vec F S5000x128 .f32 :=
  View.canon [⟨sO, k1_pay1 (View.ld x0 sX) (View.ld x1 sW0) (View.ld x2 sB) (View.ld x3 sW1) (View.ld x4 sB) (View.ld x5 sW2) (View.ld x6 sB2)⟩]

/-- The one store covers the buffer. -/
theorem ncover (p0 : Vec F S5000x128 .f32) (y : S5000x128.Idx) :
    ∃ pc ∈ ([⟨sO, p0⟩] : List (View.Piece (Elt F) S5000x128 .f32)), y ∈ pc.1.set :=
  View.cover_of_tiled [⟨sO, p0⟩] S5000x128.size (by rfl) y

/-! ## The body's triple -/

set_option maxHeartbeats 2000000 in
/-- The body on whole staging memrefs, the inputs' at contents `x0 … x6` and the result's at anything, runs to the
    continuation holding the inputs' as they were and the result's at `nout` of the inputs'. -/
theorem nkernel (c : Dev nD) (E : Set ℕ) (i : grid1.Coords)
    (arg1 : Memref sig .tc .vmem S5000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x128 .f32) (harg6 : arg6.IsWhole)
    (arg7 : Memref sig .tc .vmem S128 .f32) (harg7 : arg7.IsWhole) (arg8 : Memref sig .tc .vmem S5000x128 .f32) (harg8 : arg8.IsWhole)
    (x0 : Vec F S5000x256 .f32) (x1 : Vec F S256x256 .f32) (x2 : Vec F S256 .f32) (x3 : Vec F S256x256 .f32)
    (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (nout x0 x1 x2 x3 x4 x5 x6)) -∗ K ⟨⟩))
      ⊢ wp frame (wpE (defs₀ (F := F)) Variants.none c none) E (cc1__mlp3_kernel i arg1 harg1 arg2 harg2 arg3 harg3 arg4 harg4 arg5 harg5 arg6 harg6 arg7 harg7 arg8 harg8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (ncover _)

/-! ## The pipeline's proof data -/

/-- The proof data of the call on core `c`: the arrays as the call finds them; after the body at point `t` each input's
    buffer at its block and the result's at `nout` of the input blocks; the invariant is the part of the core the body
    neither uses nor describes; nothing owed; full shares. -/
def ndat (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nblk V c 2 t
    | ⟨3, _⟩ => nblk V c 3 t
    | ⟨4, _⟩ => nblk V c 4 t
    | ⟨5, _⟩ => nblk V c 5 t
    | ⟨6, _⟩ => nblk V c 6 t
    | ⟨7, _⟩ => nout (nblk V c 0 t) (nblk V c 1 t) (nblk V c 2 t) (nblk V c 3 t) (nblk V c 4 t) (nblk V c 5 t) (nblk V c 6 t)
  Φ _ := Pipeline.ΦA spec1 c
  q _ := fullShare
  owed _ := 0

theorem ndat_A (c : Dev nD) (w : Fin cfg1.W) : (ndat V c).A w = V c (Pipeline.arrRef spec1 w) := by
  dsimp only [ndat]

theorem nafter0 (c : Dev nD) (t : Fin cfg1.N) : (ndat V c).after 0 t = nblk V c 0 t := by dsimp only [ndat]
theorem nafter1 (c : Dev nD) (t : Fin cfg1.N) : (ndat V c).after 1 t = nblk V c 1 t := by dsimp only [ndat]
theorem nafter2 (c : Dev nD) (t : Fin cfg1.N) : (ndat V c).after 2 t = nblk V c 2 t := by dsimp only [ndat]
theorem nafter3 (c : Dev nD) (t : Fin cfg1.N) : (ndat V c).after 3 t = nblk V c 3 t := by dsimp only [ndat]
theorem nafter4 (c : Dev nD) (t : Fin cfg1.N) : (ndat V c).after 4 t = nblk V c 4 t := by dsimp only [ndat]
theorem nafter5 (c : Dev nD) (t : Fin cfg1.N) : (ndat V c).after 5 t = nblk V c 5 t := by dsimp only [ndat]
theorem nafter6 (c : Dev nD) (t : Fin cfg1.N) : (ndat V c).after 6 t = nblk V c 6 t := by dsimp only [ndat]
/-- What the body leaves in the result's buffer at point `t`. -/
theorem nafter7 (c : Dev nD) (t : Fin cfg1.N) : (ndat V c).after 7 t
    = nout (nblk V c 0 t) (nblk V c 1 t) (nblk V c 2 t) (nblk V c 3 t) (nblk V c 4 t) (nblk V c 5 t) (nblk V c 6 t) := by dsimp only [ndat]

theorem nbefore0 (c : Dev nD) (t : Fin cfg1.N) (d) : (ndat V c).before 0 t d = nblk V c 0 t := nfound0 V (ndat V c) (ndat_A V c 0) (nafter0 V c) t d
theorem nbefore1 (c : Dev nD) (t : Fin cfg1.N) (d) : (ndat V c).before 1 t d = nblk V c 1 t := nfound1 V (ndat V c) (ndat_A V c 1) (nafter1 V c) t d
theorem nbefore2 (c : Dev nD) (t : Fin cfg1.N) (d) : (ndat V c).before 2 t d = nblk V c 2 t := nfound2 V (ndat V c) (ndat_A V c 2) (nafter2 V c) t d
theorem nbefore3 (c : Dev nD) (t : Fin cfg1.N) (d) : (ndat V c).before 3 t d = nblk V c 3 t := nfound3 V (ndat V c) (ndat_A V c 3) (nafter3 V c) t d
theorem nbefore4 (c : Dev nD) (t : Fin cfg1.N) (d) : (ndat V c).before 4 t d = nblk V c 4 t := nfound4 V (ndat V c) (ndat_A V c 4) (nafter4 V c) t d
theorem nbefore5 (c : Dev nD) (t : Fin cfg1.N) (d) : (ndat V c).before 5 t d = nblk V c 5 t := nfound5 V (ndat V c) (ndat_A V c 5) (nafter5 V c) t d
theorem nbefore6 (c : Dev nD) (t : Fin cfg1.N) (d) : (ndat V c).before 6 t d = nblk V c 6 t := nfound6 V (ndat V c) (ndat_A V c 6) (nafter6 V c) t d

/-! ## The body obligation, at a generic point -/

/-- What the body is called with at point `t`, the windows one by one, -/
def nPre (c : Dev nD) (t : Fin cfg1.N) : sProp 𝕄 :=
  iprop((ndat V c).Φ t.castSucc ∗ (ndat V c).owesAt () t.castSucc
    ∗ (∃ d, owns (c : Thread nD τ) (st1_0 t) fullShare ((ndat V c).before 0 t d))
    ∗ (∃ d, owns (c : Thread nD τ) (st1_1 t) fullShare ((ndat V c).before 1 t d))
    ∗ (∃ d, owns (c : Thread nD τ) (st1_2 t) fullShare ((ndat V c).before 2 t d))
    ∗ (∃ d, owns (c : Thread nD τ) (st1_3 t) fullShare ((ndat V c).before 3 t d))
    ∗ (∃ d, owns (c : Thread nD τ) (st1_4 t) fullShare ((ndat V c).before 4 t d))
    ∗ (∃ d, owns (c : Thread nD τ) (st1_5 t) fullShare ((ndat V c).before 5 t d))
    ∗ (∃ d, owns (c : Thread nD τ) (st1_6 t) fullShare ((ndat V c).before 6 t d))
    ∗ (∃ d, owns (c : Thread nD τ) (st1_7 t) fullShare ((ndat V c).before 7 t d)))

/-- and what it returns. -/
def nPost (c : Dev nD) (t : Fin cfg1.N) : sProp 𝕄 :=
  iprop((ndat V c).Φ t.succ ∗ (ndat V c).owesAt () t.succ
    ∗ owns (c : Thread nD τ) (st1_0 t) fullShare ((ndat V c).after 0 t)
    ∗ owns (c : Thread nD τ) (st1_1 t) fullShare ((ndat V c).after 1 t)
    ∗ owns (c : Thread nD τ) (st1_2 t) fullShare ((ndat V c).after 2 t)
    ∗ owns (c : Thread nD τ) (st1_3 t) fullShare ((ndat V c).after 3 t)
    ∗ owns (c : Thread nD τ) (st1_4 t) fullShare ((ndat V c).after 4 t)
    ∗ owns (c : Thread nD τ) (st1_5 t) fullShare ((ndat V c).after 5 t)
    ∗ owns (c : Thread nD τ) (st1_6 t) fullShare ((ndat V c).after 6 t)
    ∗ owns (c : Thread nD τ) (st1_7 t) fullShare ((ndat V c).after 7 t))

/-- The body at any point: the inputs' memrefs hold their blocks, so `nkernel` applies; the invariant and the core's
    dues pass through unread. -/
theorem nbody (c : Dev nD) (t : Fin cfg1.N) :
    nPre V c t ⊢ wp frame (wpE (defs₀ (F := F)) Variants.none c none) Set.univ (bodyAt1 t) (fun _ => nPost V c t) := by
  unfold nPre nPost bodyAt1
  simp only [nbefore0, nbefore1, nbefore2, nbefore3, nbefore4, nbefore5, nbefore6]
  rw [show (ndat V c).Φ t.succ = (ndat V c).Φ t.castSucc from rfl,
    show (ndat V c).owesAt () t.succ = (ndat V c).owesAt () t.castSucc from rfl,
    nafter0, nafter1, nafter2, nafter3, nafter4, nafter5, nafter6, nafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (nkernel c Set.univ _ _ _ _ _ _ _ _ _ _ _ _ _ _ _ _ _ (nblk V c 0 t) (nblk V c 1 t) (nblk V c 2 t) (nblk V c 3 t) (nblk V c 4 t) (nblk V c 5 t) (nblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem n_body_obligation (c : Dev nD) : BodyObligation (ndat (F := F) V c) (defs₀ (F := F)) Variants.none () Set.univ := fun t => by
  rw [bigSep_W1, bigSep_W1]
  exact nbody V c t

end Cert.KernelIdeal.Hand

end
-- ==== Proof.MainRun.lean ====
/-
  The whole run of the program, generic in the float instance: host operations, the edge network's call, host operations,
  the node network's call. The contents of the core's unscoped buffers are followed through the four stretches — each
  host stretch applies its operations; each call leaves its windows' arrays at what its write-backs fold to and every
  other buffer as it found it — and the launch rule for a program of several calls then says that every weakly fair
  execution terminates with every unscoped buffer at the last of these contents. Read at an argument the fold walks back
  to the launch memory (no host operation and no call writes an argument); read at the two results it gives the calls'
  final arrays.
-/
import proofs.«180321_j72559177498912_1_alg».proof.Proof.EdgeRegion
import proofs.«180321_j72559177498912_1_alg».proof.Proof.NodeRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch: what the edge network's call finds. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the edge network's call: its arrays at what the pipeline leaves, every other buffer as found. -/
def B2 (c : Dev nD) : Valuation τ sig (Elt F) :=
  Pipeline.withArrays spec0 c (B1 m ρ c) fun w => (edat (U1 m ρ) c).arrAt w cfg0.N
theorem B2_arr (c : Dev nD) (w : Fin cfg0.W) :
    B2 m ρ c (Proc.devRef .tc (Pipeline.arrRef spec0 w)) = (edat (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hleft0 (c : Dev nD) (w : Fin cfg0.W) : (edat (U1 m ρ) c).arrAt w cfg0.N = U2 m ρ c (Pipeline.arrRef spec0 w) :=
  (B2_arr m ρ c w).symm
theorem hkept0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After the second host stretch: what the node network's call finds. -/
abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b
/-- After the node network's call: the end. -/
def B4 (c : Dev nD) : Valuation τ sig (Elt F) :=
  Pipeline.withArrays spec1 c (B3 m ρ c) fun w => (ndat (U3 m ρ) c).arrAt w cfg1.N
theorem B4_arr (c : Dev nD) (w : Fin cfg1.W) :
    B4 m ρ c (Proc.devRef .tc (Pipeline.arrRef spec1 w)) = (ndat (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev U4 : (c : Dev nD) → (b : Ref sig .tc) → Buf (Elt F) ((c : Thread nD τ).loc b) := fun c b => B4 m ρ c b
theorem hleft1 (c : Dev nD) (w : Fin cfg1.W) : (ndat (U3 m ρ) c).arrAt w cfg1.N = U4 m ρ c (Pipeline.arrRef spec1 w) :=
  (B4_arr m ρ c w).symm
theorem hkept1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)

/-! ## A buffer no host stretch writes is carried through it -/

theorem B1_of_unwritten (c : Dev nD) (b : Ref sig .tc) (hb : b ∉ ([main_c, main_v0, main_v1, main_c_0, main_v2, main_v3, main_v4, main_v5, main_v6, main_c_1, main_v7, main_v8, main_c_2, main_v9, main_v10, main_v11, main_v12, main_v13, main_v14] : List (Ref sig .tc))) :
    B1 m ρ c (Proc.devRef .tc b) = B0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.nary_writes, Finset.mem_singleton]
    simp only [List.mem_cons, List.not_mem_nil, or_false, not_or] at hb
    obtain ⟨h0, h1, h2, h3, h4, h5, h6, h7, h8, h9, h10, h11, h12, h13, h14, h15, h16, h17, h18⟩ := hb
    refine ⟨?_, ?_, ?_, ?_, ?_, ?_, ?_, ?_, ?_, ?_, ?_, ?_, ?_, ?_, ?_, ?_, ?_, ?_, ?_⟩ <;> exact StableHlo.devRef_ne_of_ne (by assumption)))

theorem B3_of_unwritten (c : Dev nD) (b : Ref sig .tc) (hb : b ∉ ([main_cst, main_v16, main_v17, main_v18, main_v19] : List (Ref sig .tc))) :
    B3 m ρ c (Proc.devRef .tc b) = B2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.nary_writes, Finset.mem_singleton]
    simp only [List.mem_cons, List.not_mem_nil, or_false, not_or] at hb
    obtain ⟨h0, h1, h2, h3, h4⟩ := hb
    refine ⟨?_, ?_, ?_, ?_, ?_⟩ <;> exact StableHlo.devRef_ne_of_ne (by assumption)))

/-- An input window's array is left as the call found it. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((edat (U1 m ρ) c).arrAt_in w hw _).trans (edat_A (U1 m ρ) c w))
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((ndat (U3 m ρ) c).arrAt_in w hw _).trans (ndat_A (U3 m ρ) c w))

/-! ## The arguments end as launched -/

theorem B4_main_arg0 (c : Dev nD) : B4 m ρ c (Proc.devRef .tc main_arg0) = m ((c : Thread nD τ).loc main_arg0) :=
  (B4_of_ne m ρ c main_arg0 (by decide)).trans <| (B3_of_unwritten m ρ c main_arg0 (by decide)).trans <|
    (B2_of_ne m ρ c main_arg0 (by decide)).trans <| (B1_of_unwritten m ρ c main_arg0 (by decide)).trans rfl
theorem B4_main_arg1 (c : Dev nD) : B4 m ρ c (Proc.devRef .tc main_arg1) = m ((c : Thread nD τ).loc main_arg1) :=
  (B4_of_ne m ρ c main_arg1 (by decide)).trans <| (B3_of_unwritten m ρ c main_arg1 (by decide)).trans <|
    (B2_of_ne m ρ c main_arg1 (by decide)).trans <| (B1_of_unwritten m ρ c main_arg1 (by decide)).trans rfl
theorem B4_main_arg2 (c : Dev nD) : B4 m ρ c (Proc.devRef .tc main_arg2) = m ((c : Thread nD τ).loc main_arg2) :=
  (B4_of_ne m ρ c main_arg2 (by decide)).trans <| (B3_of_unwritten m ρ c main_arg2 (by decide)).trans <|
    (B2_of_ne m ρ c main_arg2 (by decide)).trans <| (B1_of_unwritten m ρ c main_arg2 (by decide)).trans rfl
theorem B4_main_arg3 (c : Dev nD) : B4 m ρ c (Proc.devRef .tc main_arg3) = m ((c : Thread nD τ).loc main_arg3) :=
  (B4_of_ne m ρ c main_arg3 (by decide)).trans <| (B3_of_unwritten m ρ c main_arg3 (by decide)).trans <|
    (B2_of_ne m ρ c main_arg3 (by decide)).trans <| (B1_of_unwritten m ρ c main_arg3 (by decide)).trans rfl
/-- The edge network's parameters are its call's input windows 1 to 6. -/
theorem B4_main_arg4 (c : Dev nD) : B4 m ρ c (Proc.devRef .tc main_arg4) = m ((c : Thread nD τ).loc main_arg4) :=
  (B4_of_ne m ρ c main_arg4 (by decide)).trans <| (B3_of_unwritten m ρ c main_arg4 (by decide)).trans <|
    (B2_in m ρ c 1 rfl).trans <| (B1_of_unwritten m ρ c main_arg4 (by decide)).trans rfl
theorem B4_main_arg5 (c : Dev nD) : B4 m ρ c (Proc.devRef .tc main_arg5) = m ((c : Thread nD τ).loc main_arg5) :=
  (B4_of_ne m ρ c main_arg5 (by decide)).trans <| (B3_of_unwritten m ρ c main_arg5 (by decide)).trans <|
    (B2_in m ρ c 2 rfl).trans <| (B1_of_unwritten m ρ c main_arg5 (by decide)).trans rfl
theorem B4_main_arg6 (c : Dev nD) : B4 m ρ c (Proc.devRef .tc main_arg6) = m ((c : Thread nD τ).loc main_arg6) :=
  (B4_of_ne m ρ c main_arg6 (by decide)).trans <| (B3_of_unwritten m ρ c main_arg6 (by decide)).trans <|
    (B2_in m ρ c 3 rfl).trans <| (B1_of_unwritten m ρ c main_arg6 (by decide)).trans rfl
theorem B4_main_arg7 (c : Dev nD) : B4 m ρ c (Proc.devRef .tc main_arg7) = m ((c : Thread nD τ).loc main_arg7) :=
  (B4_of_ne m ρ c main_arg7 (by decide)).trans <| (B3_of_unwritten m ρ c main_arg7 (by decide)).trans <|
    (B2_in m ρ c 4 rfl).trans <| (B1_of_unwritten m ρ c main_arg7 (by decide)).trans rfl
theorem B4_main_arg8 (c : Dev nD) : B4 m ρ c (Proc.devRef .tc main_arg8) = m ((c : Thread nD τ).loc main_arg8) :=
  (B4_of_ne m ρ c main_arg8 (by decide)).trans <| (B3_of_unwritten m ρ c main_arg8 (by decide)).trans <|
    (B2_in m ρ c 5 rfl).trans <| (B1_of_unwritten m ρ c main_arg8 (by decide)).trans rfl
theorem B4_main_arg9 (c : Dev nD) : B4 m ρ c (Proc.devRef .tc main_arg9) = m ((c : Thread nD τ).loc main_arg9) :=
  (B4_of_ne m ρ c main_arg9 (by decide)).trans <| (B3_of_unwritten m ρ c main_arg9 (by decide)).trans <|
    (B2_in m ρ c 6 rfl).trans <| (B1_of_unwritten m ρ c main_arg9 (by decide)).trans rfl
/-- The node network's parameters are its call's input windows 1 to 6. -/
theorem B4_main_arg10 (c : Dev nD) : B4 m ρ c (Proc.devRef .tc main_arg10) = m ((c : Thread nD τ).loc main_arg10) :=
  (B4_in m ρ c 1 rfl).trans <| (B3_of_unwritten m ρ c main_arg10 (by decide)).trans <|
    (B2_of_ne m ρ c main_arg10 (by decide)).trans <| (B1_of_unwritten m ρ c main_arg10 (by decide)).trans rfl
theorem B4_main_arg11 (c : Dev nD) : B4 m ρ c (Proc.devRef .tc main_arg11) = m ((c : Thread nD τ).loc main_arg11) :=
  (B4_in m ρ c 2 rfl).trans <| (B3_of_unwritten m ρ c main_arg11 (by decide)).trans <|
    (B2_of_ne m ρ c main_arg11 (by decide)).trans <| (B1_of_unwritten m ρ c main_arg11 (by decide)).trans rfl
theorem B4_main_arg12 (c : Dev nD) : B4 m ρ c (Proc.devRef .tc main_arg12) = m ((c : Thread nD τ).loc main_arg12) :=
  (B4_in m ρ c 3 rfl).trans <| (B3_of_unwritten m ρ c main_arg12 (by decide)).trans <|
    (B2_of_ne m ρ c main_arg12 (by decide)).trans <| (B1_of_unwritten m ρ c main_arg12 (by decide)).trans rfl
theorem B4_main_arg13 (c : Dev nD) : B4 m ρ c (Proc.devRef .tc main_arg13) = m ((c : Thread nD τ).loc main_arg13) :=
  (B4_in m ρ c 4 rfl).trans <| (B3_of_unwritten m ρ c main_arg13 (by decide)).trans <|
    (B2_of_ne m ρ c main_arg13 (by decide)).trans <| (B1_of_unwritten m ρ c main_arg13 (by decide)).trans rfl
theorem B4_main_arg14 (c : Dev nD) : B4 m ρ c (Proc.devRef .tc main_arg14) = m ((c : Thread nD τ).loc main_arg14) :=
  (B4_in m ρ c 5 rfl).trans <| (B3_of_unwritten m ρ c main_arg14 (by decide)).trans <|
    (B2_of_ne m ρ c main_arg14 (by decide)).trans <| (B1_of_unwritten m ρ c main_arg14 (by decide)).trans rfl
theorem B4_main_arg15 (c : Dev nD) : B4 m ρ c (Proc.devRef .tc main_arg15) = m ((c : Thread nD τ).loc main_arg15) :=
  (B4_in m ρ c 6 rfl).trans <| (B3_of_unwritten m ρ c main_arg15 (by decide)).trans <|
    (B2_of_ne m ρ c main_arg15 (by decide)).trans <| (B1_of_unwritten m ρ c main_arg15 (by decide)).trans rfl

/-! ## The two results at the end -/

/-- The node outputs: the node network's final result array. -/
theorem B4_nodes (c : Dev nD) : B4 m ρ c (Proc.devRef .tc main_v20) = (ndat (U3 m ρ) c).arrAt 7 cfg1.N := B4_arr m ρ c 7
/-- The edge outputs: the edge network's final result array, which nothing later writes. -/
theorem B4_edges (c : Dev nD) : B4 m ρ c (Proc.devRef .tc main_v15) = (edat (U1 m ρ) c).arrAt 7 cfg0.N :=
  (B4_of_ne m ρ c main_v15 (by decide)).trans <| (B3_of_unwritten m ρ c main_v15 (by decide)).trans (B2_arr m ρ c 7)

/-! ## The proof data family and the thread state -/

abbrev adm : (p : Fin 2) → (pcfgs (F := F) p).Adm := fun p => (cfgs p).toPCfg_adm
/-- Each call's proof data at the contents its call is entered from. -/
def pdats : (p : Fin 2) → (c : Dev nD) → Dat τ (Elt F) Unit ℕ (UR sig nD τ) ℕ (Pipeline.pin (pcfgs (F := F)) adm p) c
  | ⟨0, _⟩ => fun c => edat (U1 m ρ) c
  | ⟨1, _⟩ => fun c => ndat (U3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_nofresh : (hostOps0 : List (HloOp τ sig (Elt F))).Forall fun op => op.fresh = ∅ := by
  simp only [List.Forall]; repeat' constructor
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tend (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- The edge network's call over the thread state: entered from every unscoped buffer at `B1`, left at `B2`. Its arrays
    are split out of the unscoped buffers and put back at the exit contents; the generator register goes into the
    invariant and out; nothing is owed; the kernel has no semaphore of its own. -/
def regE : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (e_body_obligation (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hleft0 m ρ c) (hkept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network's call over the thread state: entered from every unscoped buffer at `B3`, left at `B4`. -/
def regN : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (n_body_obligation (U3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hleft1 m ρ c) (hkept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_nofresh (B0 m ρ)),
    .region (regE m ρ),
    .host (hseg hostOps1 hostOps1_sub hostOps1_nofresh (B2 m ρ)),
    .region (regN m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c),
      (h c _ (mem_uc main_arg10 (by decide))).trans (B4_main_arg10 m ρ c),
      (h c _ (mem_uc main_arg11 (by decide))).trans (B4_main_arg11 m ρ c),
      (h c _ (mem_uc main_arg12 (by decide))).trans (B4_main_arg12 m ρ c),
      (h c _ (mem_uc main_arg13 (by decide))).trans (B4_main_arg13 m ρ c),
      (h c _ (mem_uc main_arg14 (by decide))).trans (B4_main_arg14 m ρ c),
      (h c _ (mem_uc main_arg15 (by decide))).trans (B4_main_arg15 m ρ c)⟩)
    (run_all m ρ)

/-- THE RUN, READ: the two results at the calls' final arrays, the arguments as launched. -/
theorem run_results : θ_run defs (onTc (τ := τ) (main (F := F))) ⟨m, fun _ => 0, ρ⟩ (fun r => ∀ c : Dev nD,
      r.2.mem ((c.tc : Thread nD τ).loc main_v20) = (ndat (U3 m ρ) c).arrAt 7 cfg1.N
      ∧ r.2.mem ((c.tc : Thread nD τ).loc main_v15) = (edat (U1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_uc main_v20 (by decide))).trans (B4_nodes m ρ c),
      (h c _ (mem_uc main_v15 (by decide))).trans (B4_edges m ρ c),
      (h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c),
      (h c _ (mem_uc main_arg10 (by decide))).trans (B4_main_arg10 m ρ c),
      (h c _ (mem_uc main_arg11 (by decide))).trans (B4_main_arg11 m ρ c),
      (h c _ (mem_uc main_arg12 (by decide))).trans (B4_main_arg12 m ρ c),
      (h c _ (mem_uc main_arg13 (by decide))).trans (B4_main_arg13 m ρ c),
      (h c _ (mem_uc main_arg14 (by decide))).trans (B4_main_arg14 m ρ c),
      (h c _ (mem_uc main_arg15 (by decide))).trans (B4_main_arg15 m ρ c)⟩)
    (run_all m ρ)

end Cert.KernelIdeal.Hand

end
-- ==== Proof.KernelBits.EdgeRegion.lean ====
/-
  The edge network's launch (the first of the two kernel calls), generic in the float instance: what its body does to the
  staging buffers at one grid point, and the data the pipeline's launch rule asks for.

  The call has eight windows. Window 0 is the batch of edge rows, moving one block of 4000 rows per grid point; windows
  1 to 6 are the three weight matrices and the three biases, each one block that is the whole array and stays at block
  index zero; window 7 is the result, one block of 4000 rows per point, written back at every point. At a point the body
  loads the seven input blocks whole, loads the result's buffer (a value it never uses), and stores ONE value, a
  function of the seven loaded blocks, over the whole of the result's buffer. So after the body every input buffer is
  as it was found and the result's buffer holds that function of the input blocks; nothing is kept between points, no
  semaphore of the kernel's own is touched, nothing is owed.
-/
import proofs.«180321_j72559177498912_1_alg».proof.Proof.Gen.Kernel.Launch
import proofs.«180321_j72559177498912_1_alg».proof.Proof.Gen.Kernel.Skeleton
import proofs.«180321_j72559177498912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def eblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it there or
    not: where it did not, the block index has not moved since the fetch and the body leaves the buffer as found. -/

theorem efound0 {c : Dev nD} (dat : Dat τ (Elt F) Unit ℕ (UR sig nD τ) ℕ cfg0 c) (hA : dat.A 0 = V c (Pipeline.arrRef spec0 0))
    (hafter : ∀ t, dat.after 0 t = eblk V c 0 t) (t : Fin cfg0.N) (d) : dat.before 0 t d = eblk V c 0 t :=
  (dat.before_in_eq_fetched 0 rfl (fun _ => rfl) (fun _ _ _ => rfl) (fun t => by rw [hafter]; unfold Dat.blockOf eblk; rw [hA]; try rfl) t d).trans
    (by unfold Dat.fetched Dat.blockOf eblk; rw [hA]; try rfl)
theorem efound1 {c : Dev nD} (dat : Dat τ (Elt F) Unit ℕ (UR sig nD τ) ℕ cfg0 c) (hA : dat.A 1 = V c (Pipeline.arrRef spec0 1))
    (hafter : ∀ t, dat.after 1 t = eblk V c 1 t) (t : Fin cfg0.N) (d) : dat.before 1 t d = eblk V c 1 t :=
  (dat.before_in_eq_fetched 1 rfl (fun _ => rfl) (fun _ _ _ => rfl) (fun t => by rw [hafter]; unfold Dat.blockOf eblk; rw [hA]; try rfl) t d).trans
    (by unfold Dat.fetched Dat.blockOf eblk; rw [hA]; try rfl)
theorem efound2 {c : Dev nD} (dat : Dat τ (Elt F) Unit ℕ (UR sig nD τ) ℕ cfg0 c) (hA : dat.A 2 = V c (Pipeline.arrRef spec0 2))
    (hafter : ∀ t, dat.after 2 t = eblk V c 2 t) (t : Fin cfg0.N) (d) : dat.before 2 t d = eblk V c 2 t :=
  (dat.before_in_eq_fetched 2 rfl (fun _ => rfl) (fun _ _ _ => rfl) (fun t => by rw [hafter]; unfold Dat.blockOf eblk; rw [hA]; try rfl) t d).trans
    (by unfold Dat.fetched Dat.blockOf eblk; rw [hA]; try rfl)
theorem efound3 {c : Dev nD} (dat : Dat τ (Elt F) Unit ℕ (UR sig nD τ) ℕ cfg0 c) (hA : dat.A 3 = V c (Pipeline.arrRef spec0 3))
    (hafter : ∀ t, dat.after 3 t = eblk V c 3 t) (t : Fin cfg0.N) (d) : dat.before 3 t d = eblk V c 3 t :=
  (dat.before_in_eq_fetched 3 rfl (fun _ => rfl) (fun _ _ _ => rfl) (fun t => by rw [hafter]; unfold Dat.blockOf eblk; rw [hA]; try rfl) t d).trans
    (by unfold Dat.fetched Dat.blockOf eblk; rw [hA]; try rfl)
theorem efound4 {c : Dev nD} (dat : Dat τ (Elt F) Unit ℕ (UR sig nD τ) ℕ cfg0 c) (hA : dat.A 4 = V c (Pipeline.arrRef spec0 4))
    (hafter : ∀ t, dat.after 4 t = eblk V c 4 t) (t : Fin cfg0.N) (d) : dat.before 4 t d = eblk V c 4 t :=
  (dat.before_in_eq_fetched 4 rfl (fun _ => rfl) (fun _ _ _ => rfl) (fun t => by rw [hafter]; unfold Dat.blockOf eblk; rw [hA]; try rfl) t d).trans
    (by unfold Dat.fetched Dat.blockOf eblk; rw [hA]; try rfl)
theorem efound5 {c : Dev nD} (dat : Dat τ (Elt F) Unit ℕ (UR sig nD τ) ℕ cfg0 c) (hA : dat.A 5 = V c (Pipeline.arrRef spec0 5))
    (hafter : ∀ t, dat.after 5 t = eblk V c 5 t) (t : Fin cfg0.N) (d) : dat.before 5 t d = eblk V c 5 t :=
  (dat.before_in_eq_fetched 5 rfl (fun _ => rfl) (fun _ _ _ => rfl) (fun t => by rw [hafter]; unfold Dat.blockOf eblk; rw [hA]; try rfl) t d).trans
    (by unfold Dat.fetched Dat.blockOf eblk; rw [hA]; try rfl)
theorem efound6 {c : Dev nD} (dat : Dat τ (Elt F) Unit ℕ (UR sig nD τ) ℕ cfg0 c) (hA : dat.A 6 = V c (Pipeline.arrRef spec0 6))
    (hafter : ∀ t, dat.after 6 t = eblk V c 6 t) (t : Fin cfg0.N) (d) : dat.before 6 t d = eblk V c 6 t :=
  (dat.before_in_eq_fetched 6 rfl (fun _ => rfl) (fun _ _ _ => rfl) (fun t => by rw [hafter]; unfold Dat.blockOf eblk; rw [hA]; try rfl) t d).trans
    (by unfold Dat.fetched Dat.blockOf eblk; rw [hA]; try rfl)

/-! ## The body's accesses: every load and the one store take a buffer whole -/

abbrev rX : Rect S4000x320 := Rect.unit (s := S4000x320) ![0, 0] S4000x320.size inb_S4000x320_S4000x320_0_0
abbrev rW0 : Rect S320x256 := Rect.unit (s := S320x256) ![0, 0] S320x256.size inb_S320x256_S320x256_0_0
abbrev rB : Rect S256 := Rect.unit (s := S256) ![0] S256.size inb_S256_S256_0
abbrev rW1 : Rect S256x256 := Rect.unit (s := S256x256) ![0, 0] S256x256.size inb_S256x256_S256x256_0_0
abbrev rW2 : Rect S256x128 := Rect.unit (s := S256x128) ![0, 0] S256x128.size inb_S256x128_S256x128_0_0
abbrev rB2 : Rect S128 := Rect.unit (s := S128) ![0] S128.size inb_S128_S128_0
abbrev rO : Rect S4000x128 := Rect.unit (s := S4000x128) ![0, 0] S4000x128.size inb_S4000x128_S4000x128_0_0

/-! ## What the body leaves in the result's buffer -/

/-- The result's staging buffer after the body, from the seven input blocks: its one store, of the three-layer value of
    the loaded blocks, over the whole buffer. -/
def eout (x0 : Vec F S4000x320 .f32) (x1 : Vec F S320x256 .f32) (x2 : Vec F S256 .f32) (x3 : Vec F S256x256 .f32)
    (x4 : Vec F S256 .f32) (x5 : Vec F S256x128 .f32) (x6 : Vec F S128 .f32) : Vec F S4000x128 .f32 :=
  View.canon [⟨rO, k0_pay1 (View.ld x0 rX) (View.ld x1 rW0) (View.ld x2 rB) (View.ld x3 rW1) (View.ld x4 rB) (View.ld x5 rW2) (View.ld x6 rB2)⟩]

/-- The one store covers the buffer. -/
theorem ecover (p0 : Vec F S4000x128 .f32) (y : S4000x128.Idx) :
    ∃ pc ∈ ([⟨rO, p0⟩] : List (View.Piece (Elt F) S4000x128 .f32)), y ∈ pc.1.set :=
  View.cover_of_tiled [⟨rO, p0⟩] S4000x128.size (by rfl) y

/-! ## The body's triple -/

set_option maxHeartbeats 2000000 in
/-- The body on whole staging memrefs, the inputs' at contents `x0 … x6` and the result's at anything, runs to the
    continuation holding the inputs' as they were and the result's at `eout` of the inputs'. -/
theorem ekernel (c : Dev nD) (E : Set ℕ) (i : grid0.Coords)
    (arg1 : Memref sig .tc .vmem S4000x320 .f32) (harg1 : arg1.IsWhole) (arg2 : Memref sig .tc .vmem S320x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x128 .f32) (harg6 : arg6.IsWhole)
    (arg7 : Memref sig .tc .vmem S128 .f32) (harg7 : arg7.IsWhole) (arg8 : Memref sig .tc .vmem S4000x128 .f32) (harg8 : arg8.IsWhole)
    (x0 : Vec F S4000x320 .f32) (x1 : Vec F S320x256 .f32) (x2 : Vec F S256 .f32) (x3 : Vec F S256x256 .f32)
    (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (eout x0 x1 x2 x3 x4 x5 x6)) -∗ K ⟨⟩))
      ⊢ wp frame (wpE (defs₀ (F := F)) Variants.none c none) E (cc0__mlp3_kernel i arg1 harg1 arg2 harg2 arg3 harg3 arg4 harg4 arg5 harg5 arg6 harg6 arg7 harg7 arg8 harg8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (ecover _)

/-! ## The pipeline's proof data -/

/-- The proof data of the call on core `c`: the arrays as the call finds them; after the body at point `t` each input's
    buffer at its block and the result's at `eout` of the input blocks; the invariant is the part of the core the body
    neither uses nor describes; nothing owed; full shares. -/
def edat (c : Dev nD) : Dat τ (Elt F) Unit ℕ (UR sig nD τ) ℕ cfg0 c where
  A w := V c (Pipeline.arrRef spec0 w)
  after w t := match w with
    | ⟨0, _⟩ => eblk V c 0 t
    | ⟨1, _⟩ => eblk V c 1 t
    | ⟨2, _⟩ => eblk V c 2 t
    | ⟨3, _⟩ => eblk V c 3 t
    | ⟨4, _⟩ => eblk V c 4 t
    | ⟨5, _⟩ => eblk V c 5 t
    | ⟨6, _⟩ => eblk V c 6 t
    | ⟨7, _⟩ => eout (eblk V c 0 t) (eblk V c 1 t) (eblk V c 2 t) (eblk V c 3 t) (eblk V c 4 t) (eblk V c 5 t) (eblk V c 6 t)
  Φ _ := Pipeline.ΦA spec0 c
  q _ := fullShare
  owed _ := 0

theorem edat_A (c : Dev nD) (w : Fin cfg0.W) : (edat V c).A w = V c (Pipeline.arrRef spec0 w) := by
  dsimp only [edat]

theorem eafter0 (c : Dev nD) (t : Fin cfg0.N) : (edat V c).after 0 t = eblk V c 0 t := by dsimp only [edat]
theorem eafter1 (c : Dev nD) (t : Fin cfg0.N) : (edat V c).after 1 t = eblk V c 1 t := by dsimp only [edat]
theorem eafter2 (c : Dev nD) (t : Fin cfg0.N) : (edat V c).after 2 t = eblk V c 2 t := by dsimp only [edat]
theorem eafter3 (c : Dev nD) (t : Fin cfg0.N) : (edat V c).after 3 t = eblk V c 3 t := by dsimp only [edat]
theorem eafter4 (c : Dev nD) (t : Fin cfg0.N) : (edat V c).after 4 t = eblk V c 4 t := by dsimp only [edat]
theorem eafter5 (c : Dev nD) (t : Fin cfg0.N) : (edat V c).after 5 t = eblk V c 5 t := by dsimp only [edat]
theorem eafter6 (c : Dev nD) (t : Fin cfg0.N) : (edat V c).after 6 t = eblk V c 6 t := by dsimp only [edat]
/-- What the body leaves in the result's buffer at point `t`. -/
theorem eafter7 (c : Dev nD) (t : Fin cfg0.N) : (edat V c).after 7 t
    = eout (eblk V c 0 t) (eblk V c 1 t) (eblk V c 2 t) (eblk V c 3 t) (eblk V c 4 t) (eblk V c 5 t) (eblk V c 6 t) := by dsimp only [edat]

theorem ebefore0 (c : Dev nD) (t : Fin cfg0.N) (d) : (edat V c).before 0 t d = eblk V c 0 t := efound0 V (edat V c) (edat_A V c 0) (eafter0 V c) t d
theorem ebefore1 (c : Dev nD) (t : Fin cfg0.N) (d) : (edat V c).before 1 t d = eblk V c 1 t := efound1 V (edat V c) (edat_A V c 1) (eafter1 V c) t d
theorem ebefore2 (c : Dev nD) (t : Fin cfg0.N) (d) : (edat V c).before 2 t d = eblk V c 2 t := efound2 V (edat V c) (edat_A V c 2) (eafter2 V c) t d
theorem ebefore3 (c : Dev nD) (t : Fin cfg0.N) (d) : (edat V c).before 3 t d = eblk V c 3 t := efound3 V (edat V c) (edat_A V c 3) (eafter3 V c) t d
theorem ebefore4 (c : Dev nD) (t : Fin cfg0.N) (d) : (edat V c).before 4 t d = eblk V c 4 t := efound4 V (edat V c) (edat_A V c 4) (eafter4 V c) t d
theorem ebefore5 (c : Dev nD) (t : Fin cfg0.N) (d) : (edat V c).before 5 t d = eblk V c 5 t := efound5 V (edat V c) (edat_A V c 5) (eafter5 V c) t d
theorem ebefore6 (c : Dev nD) (t : Fin cfg0.N) (d) : (edat V c).before 6 t d = eblk V c 6 t := efound6 V (edat V c) (edat_A V c 6) (eafter6 V c) t d

/-! ## The body obligation, at a generic point -/

/-- What the body is called with at point `t`, the windows one by one, -/
def ePre (c : Dev nD) (t : Fin cfg0.N) : sProp 𝕄 :=
  iprop((edat V c).Φ t.castSucc ∗ (edat V c).owesAt () t.castSucc
    ∗ (∃ d, owns (c : Thread nD τ) (st0_0 t) fullShare ((edat V c).before 0 t d))
    ∗ (∃ d, owns (c : Thread nD τ) (st0_1 t) fullShare ((edat V c).before 1 t d))
    ∗ (∃ d, owns (c : Thread nD τ) (st0_2 t) fullShare ((edat V c).before 2 t d))
    ∗ (∃ d, owns (c : Thread nD τ) (st0_3 t) fullShare ((edat V c).before 3 t d))
    ∗ (∃ d, owns (c : Thread nD τ) (st0_4 t) fullShare ((edat V c).before 4 t d))
    ∗ (∃ d, owns (c : Thread nD τ) (st0_5 t) fullShare ((edat V c).before 5 t d))
    ∗ (∃ d, owns (c : Thread nD τ) (st0_6 t) fullShare ((edat V c).before 6 t d))
    ∗ (∃ d, owns (c : Thread nD τ) (st0_7 t) fullShare ((edat V c).before 7 t d)))

/-- and what it returns. -/
def ePost (c : Dev nD) (t : Fin cfg0.N) : sProp 𝕄 :=
  iprop((edat V c).Φ t.succ ∗ (edat V c).owesAt () t.succ
    ∗ owns (c : Thread nD τ) (st0_0 t) fullShare ((edat V c).after 0 t)
    ∗ owns (c : Thread nD τ) (st0_1 t) fullShare ((edat V c).after 1 t)
    ∗ owns (c : Thread nD τ) (st0_2 t) fullShare ((edat V c).after 2 t)
    ∗ owns (c : Thread nD τ) (st0_3 t) fullShare ((edat V c).after 3 t)
    ∗ owns (c : Thread nD τ) (st0_4 t) fullShare ((edat V c).after 4 t)
    ∗ owns (c : Thread nD τ) (st0_5 t) fullShare ((edat V c).after 5 t)
    ∗ owns (c : Thread nD τ) (st0_6 t) fullShare ((edat V c).after 6 t)
    ∗ owns (c : Thread nD τ) (st0_7 t) fullShare ((edat V c).after 7 t))

/-- The body at any point: the inputs' memrefs hold their blocks, so `ekernel` applies; the invariant and the core's
    dues pass through unread. -/
theorem ebody (c : Dev nD) (t : Fin cfg0.N) :
    ePre V c t ⊢ wp frame (wpE (defs₀ (F := F)) Variants.none c none) Set.univ (bodyAt0 t) (fun _ => ePost V c t) := by
  unfold ePre ePost bodyAt0
  simp only [ebefore0, ebefore1, ebefore2, ebefore3, ebefore4, ebefore5, ebefore6]
  rw [show (edat V c).Φ t.succ = (edat V c).Φ t.castSucc from rfl,
    show (edat V c).owesAt () t.succ = (edat V c).owesAt () t.castSucc from rfl,
    eafter0, eafter1, eafter2, eafter3, eafter4, eafter5, eafter6, eafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (ekernel c Set.univ _ _ _ _ _ _ _ _ _ _ _ _ _ _ _ _ _ (eblk V c 0 t) (eblk V c 1 t) (eblk V c 2 t) (eblk V c 3 t) (eblk V c 4 t) (eblk V c 5 t) (eblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem e_body_obligation (c : Dev nD) : BodyObligation (edat (F := F) V c) (defs₀ (F := F)) Variants.none () Set.univ := fun t => by
  rw [bigSep_W0, bigSep_W0]
  exact ebody V c t

end Cert.Kernel.Hand

end
-- ==== Proof.KernelBits.NodeRegion.lean ====
/-
  The node network's launch (the second of the two kernel calls), generic in the float instance: what its body does to the
  staging buffers at one grid point, and the data the pipeline's launch rule asks for.

  The call has eight windows. Window 0 is the batch of node rows, moving one block of 5000 rows per grid point; windows
  1 to 6 are the three weight matrices and the three biases, each one block that is the whole array and stays at block
  index zero; window 7 is the result, one block of 5000 rows per point, written back at every point. At a point the body
  loads the seven input blocks whole, loads the result's buffer (a value it never uses), and stores ONE value, a
  function of the seven loaded blocks, over the whole of the result's buffer. So after the body every input buffer is
  as it was found and the result's buffer holds that function of the input blocks; nothing is kept between points, no
  semaphore of the kernel's own is touched, nothing is owed.
-/
import proofs.«180321_j72559177498912_1_alg».proof.Proof.Gen.Kernel.Launch
import proofs.«180321_j72559177498912_1_alg».proof.Proof.Gen.Kernel.Skeleton
import proofs.«180321_j72559177498912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def nblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it there or
    not: where it did not, the block index has not moved since the fetch and the body leaves the buffer as found. -/

theorem nfound0 {c : Dev nD} (dat : Dat τ (Elt F) Unit ℕ (UR sig nD τ) ℕ cfg1 c) (hA : dat.A 0 = V c (Pipeline.arrRef spec1 0))
    (hafter : ∀ t, dat.after 0 t = nblk V c 0 t) (t : Fin cfg1.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)
theorem nfound1 {c : Dev nD} (dat : Dat τ (Elt F) Unit ℕ (UR sig nD τ) ℕ cfg1 c) (hA : dat.A 1 = V c (Pipeline.arrRef spec1 1))
    (hafter : ∀ t, dat.after 1 t = nblk V c 1 t) (t : Fin cfg1.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)
theorem nfound2 {c : Dev nD} (dat : Dat τ (Elt F) Unit ℕ (UR sig nD τ) ℕ cfg1 c) (hA : dat.A 2 = V c (Pipeline.arrRef spec1 2))
    (hafter : ∀ t, dat.after 2 t = nblk V c 2 t) (t : Fin cfg1.N) (d) : dat.before 2 t d = nblk V c 2 t :=
  (dat.before_in_eq_fetched 2 rfl (fun _ => rfl) (fun _ _ _ => rfl) (fun t => by rw [hafter]; unfold Dat.blockOf nblk; rw [hA]; try rfl) t d).trans
    (by unfold Dat.fetched Dat.blockOf nblk; rw [hA]; try rfl)
theorem nfound3 {c : Dev nD} (dat : Dat τ (Elt F) Unit ℕ (UR sig nD τ) ℕ cfg1 c) (hA : dat.A 3 = V c (Pipeline.arrRef spec1 3))
    (hafter : ∀ t, dat.after 3 t = nblk V c 3 t) (t : Fin cfg1.N) (d) : dat.before 3 t d = nblk V c 3 t :=
  (dat.before_in_eq_fetched 3 rfl (fun _ => rfl) (fun _ _ _ => rfl) (fun t => by rw [hafter]; unfold Dat.blockOf nblk; rw [hA]; try rfl) t d).trans
    (by unfold Dat.fetched Dat.blockOf nblk; rw [hA]; try rfl)
theorem nfound4 {c : Dev nD} (dat : Dat τ (Elt F) Unit ℕ (UR sig nD τ) ℕ cfg1 c) (hA : dat.A 4 = V c (Pipeline.arrRef spec1 4))
    (hafter : ∀ t, dat.after 4 t = nblk V c 4 t) (t : Fin cfg1.N) (d) : dat.before 4 t d = nblk V c 4 t :=
  (dat.before_in_eq_fetched 4 rfl (fun _ => rfl) (fun _ _ _ => rfl) (fun t => by rw [hafter]; unfold Dat.blockOf nblk; rw [hA]; try rfl) t d).trans
    (by unfold Dat.fetched Dat.blockOf nblk; rw [hA]; try rfl)
theorem nfound5 {c : Dev nD} (dat : Dat τ (Elt F) Unit ℕ (UR sig nD τ) ℕ cfg1 c) (hA : dat.A 5 = V c (Pipeline.arrRef spec1 5))
    (hafter : ∀ t, dat.after 5 t = nblk V c 5 t) (t : Fin cfg1.N) (d) : dat.before 5 t d = nblk V c 5 t :=
  (dat.before_in_eq_fetched 5 rfl (fun _ => rfl) (fun _ _ _ => rfl) (fun t => by rw [hafter]; unfold Dat.blockOf nblk; rw [hA]; try rfl) t d).trans
    (by unfold Dat.fetched Dat.blockOf nblk; rw [hA]; try rfl)
theorem nfound6 {c : Dev nD} (dat : Dat τ (Elt F) Unit ℕ (UR sig nD τ) ℕ cfg1 c) (hA : dat.A 6 = V c (Pipeline.arrRef spec1 6))
    (hafter : ∀ t, dat.after 6 t = nblk V c 6 t) (t : Fin cfg1.N) (d) : dat.before 6 t d = nblk V c 6 t :=
  (dat.before_in_eq_fetched 6 rfl (fun _ => rfl) (fun _ _ _ => rfl) (fun t => by rw [hafter]; unfold Dat.blockOf nblk; rw [hA]; try rfl) t d).trans
    (by unfold Dat.fetched Dat.blockOf nblk; rw [hA]; try rfl)

/-! ## The body's accesses: every load and the one store take a buffer whole -/

abbrev sX : Rect S5000x256 := Rect.unit (s := S5000x256) ![0, 0] S5000x256.size inb_S5000x256_S5000x256_0_0
abbrev sW0 : Rect S256x256 := Rect.unit (s := S256x256) ![0, 0] S256x256.size inb_S256x256_S256x256_0_0
abbrev sB : Rect S256 := Rect.unit (s := S256) ![0] S256.size inb_S256_S256_0
abbrev sW1 : Rect S256x256 := Rect.unit (s := S256x256) ![0, 0] S256x256.size inb_S256x256_S256x256_0_0
abbrev sW2 : Rect S256x128 := Rect.unit (s := S256x128) ![0, 0] S256x128.size inb_S256x128_S256x128_0_0
abbrev sB2 : Rect S128 := Rect.unit (s := S128) ![0] S128.size inb_S128_S128_0
abbrev sO : Rect S5000x128 := Rect.unit (s := S5000x128) ![0, 0] S5000x128.size inb_S5000x128_S5000x128_0_0

/-! ## What the body leaves in the result's buffer -/

/-- The result's staging buffer after the body, from the seven input blocks: its one store, of the three-layer value of
    the loaded blocks, over the whole buffer. -/
def nout (x0 : Vec F S5000x256 .f32) (x1 : Vec F S256x256 .f32) (x2 : Vec F S256 .f32) (x3 : Vec F S256x256 .f32)
    (x4 : Vec F S256 .f32) (x5 : Vec F S256x128 .f32) (x6 : Vec F S128 .f32) : Vec F S5000x128 .f32 :=
  View.canon [⟨sO, k1_pay1 (View.ld x0 sX) (View.ld x1 sW0) (View.ld x2 sB) (View.ld x3 sW1) (View.ld x4 sB) (View.ld x5 sW2) (View.ld x6 sB2)⟩]

/-- The one store covers the buffer. -/
theorem ncover (p0 : Vec F S5000x128 .f32) (y : S5000x128.Idx) :
    ∃ pc ∈ ([⟨sO, p0⟩] : List (View.Piece (Elt F) S5000x128 .f32)), y ∈ pc.1.set :=
  View.cover_of_tiled [⟨sO, p0⟩] S5000x128.size (by rfl) y

/-! ## The body's triple -/

set_option maxHeartbeats 2000000 in
/-- The body on whole staging memrefs, the inputs' at contents `x0 … x6` and the result's at anything, runs to the
    continuation holding the inputs' as they were and the result's at `nout` of the inputs'. -/
theorem nkernel (c : Dev nD) (E : Set ℕ) (i : grid1.Coords)
    (arg1 : Memref sig .tc .vmem S5000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x128 .f32) (harg6 : arg6.IsWhole)
    (arg7 : Memref sig .tc .vmem S128 .f32) (harg7 : arg7.IsWhole) (arg8 : Memref sig .tc .vmem S5000x128 .f32) (harg8 : arg8.IsWhole)
    (x0 : Vec F S5000x256 .f32) (x1 : Vec F S256x256 .f32) (x2 : Vec F S256 .f32) (x3 : Vec F S256x256 .f32)
    (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (nout x0 x1 x2 x3 x4 x5 x6)) -∗ K ⟨⟩))
      ⊢ wp frame (wpE (defs₀ (F := F)) Variants.none c none) E (cc1__mlp3_kernel i arg1 harg1 arg2 harg2 arg3 harg3 arg4 harg4 arg5 harg5 arg6 harg6 arg7 harg7 arg8 harg8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (ncover _)

/-! ## The pipeline's proof data -/

/-- The proof data of the call on core `c`: the arrays as the call finds them; after the body at point `t` each input's
    buffer at its block and the result's at `nout` of the input blocks; the invariant is the part of the core the body
    neither uses nor describes; nothing owed; full shares. -/
def ndat (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nblk V c 2 t
    | ⟨3, _⟩ => nblk V c 3 t
    | ⟨4, _⟩ => nblk V c 4 t
    | ⟨5, _⟩ => nblk V c 5 t
    | ⟨6, _⟩ => nblk V c 6 t
    | ⟨7, _⟩ => nout (nblk V c 0 t) (nblk V c 1 t) (nblk V c 2 t) (nblk V c 3 t) (nblk V c 4 t) (nblk V c 5 t) (nblk V c 6 t)
  Φ _ := Pipeline.ΦA spec1 c
  q _ := fullShare
  owed _ := 0

theorem ndat_A (c : Dev nD) (w : Fin cfg1.W) : (ndat V c).A w = V c (Pipeline.arrRef spec1 w) := by
  dsimp only [ndat]

theorem nafter0 (c : Dev nD) (t : Fin cfg1.N) : (ndat V c).after 0 t = nblk V c 0 t := by dsimp only [ndat]
theorem nafter1 (c : Dev nD) (t : Fin cfg1.N) : (ndat V c).after 1 t = nblk V c 1 t := by dsimp only [ndat]
theorem nafter2 (c : Dev nD) (t : Fin cfg1.N) : (ndat V c).after 2 t = nblk V c 2 t := by dsimp only [ndat]
theorem nafter3 (c : Dev nD) (t : Fin cfg1.N) : (ndat V c).after 3 t = nblk V c 3 t := by dsimp only [ndat]
theorem nafter4 (c : Dev nD) (t : Fin cfg1.N) : (ndat V c).after 4 t = nblk V c 4 t := by dsimp only [ndat]
theorem nafter5 (c : Dev nD) (t : Fin cfg1.N) : (ndat V c).after 5 t = nblk V c 5 t := by dsimp only [ndat]
theorem nafter6 (c : Dev nD) (t : Fin cfg1.N) : (ndat V c).after 6 t = nblk V c 6 t := by dsimp only [ndat]
/-- What the body leaves in the result's buffer at point `t`. -/
theorem nafter7 (c : Dev nD) (t : Fin cfg1.N) : (ndat V c).after 7 t
    = nout (nblk V c 0 t) (nblk V c 1 t) (nblk V c 2 t) (nblk V c 3 t) (nblk V c 4 t) (nblk V c 5 t) (nblk V c 6 t) := by dsimp only [ndat]

theorem nbefore0 (c : Dev nD) (t : Fin cfg1.N) (d) : (ndat V c).before 0 t d = nblk V c 0 t := nfound0 V (ndat V c) (ndat_A V c 0) (nafter0 V c) t d
theorem nbefore1 (c : Dev nD) (t : Fin cfg1.N) (d) : (ndat V c).before 1 t d = nblk V c 1 t := nfound1 V (ndat V c) (ndat_A V c 1) (nafter1 V c) t d
theorem nbefore2 (c : Dev nD) (t : Fin cfg1.N) (d) : (ndat V c).before 2 t d = nblk V c 2 t := nfound2 V (ndat V c) (ndat_A V c 2) (nafter2 V c) t d
theorem nbefore3 (c : Dev nD) (t : Fin cfg1.N) (d) : (ndat V c).before 3 t d = nblk V c 3 t := nfound3 V (ndat V c) (ndat_A V c 3) (nafter3 V c) t d
theorem nbefore4 (c : Dev nD) (t : Fin cfg1.N) (d) : (ndat V c).before 4 t d = nblk V c 4 t := nfound4 V (ndat V c) (ndat_A V c 4) (nafter4 V c) t d
theorem nbefore5 (c : Dev nD) (t : Fin cfg1.N) (d) : (ndat V c).before 5 t d = nblk V c 5 t := nfound5 V (ndat V c) (ndat_A V c 5) (nafter5 V c) t d
theorem nbefore6 (c : Dev nD) (t : Fin cfg1.N) (d) : (ndat V c).before 6 t d = nblk V c 6 t := nfound6 V (ndat V c) (ndat_A V c 6) (nafter6 V c) t d

/-! ## The body obligation, at a generic point -/

/-- What the body is called with at point `t`, the windows one by one, -/
def nPre (c : Dev nD) (t : Fin cfg1.N) : sProp 𝕄 :=
  iprop((ndat V c).Φ t.castSucc ∗ (ndat V c).owesAt () t.castSucc
    ∗ (∃ d, owns (c : Thread nD τ) (st1_0 t) fullShare ((ndat V c).before 0 t d))
    ∗ (∃ d, owns (c : Thread nD τ) (st1_1 t) fullShare ((ndat V c).before 1 t d))
    ∗ (∃ d, owns (c : Thread nD τ) (st1_2 t) fullShare ((ndat V c).before 2 t d))
    ∗ (∃ d, owns (c : Thread nD τ) (st1_3 t) fullShare ((ndat V c).before 3 t d))
    ∗ (∃ d, owns (c : Thread nD τ) (st1_4 t) fullShare ((ndat V c).before 4 t d))
    ∗ (∃ d, owns (c : Thread nD τ) (st1_5 t) fullShare ((ndat V c).before 5 t d))
    ∗ (∃ d, owns (c : Thread nD τ) (st1_6 t) fullShare ((ndat V c).before 6 t d))
    ∗ (∃ d, owns (c : Thread nD τ) (st1_7 t) fullShare ((ndat V c).before 7 t d)))

/-- and what it returns. -/
def nPost (c : Dev nD) (t : Fin cfg1.N) : sProp 𝕄 :=
  iprop((ndat V c).Φ t.succ ∗ (ndat V c).owesAt () t.succ
    ∗ owns (c : Thread nD τ) (st1_0 t) fullShare ((ndat V c).after 0 t)
    ∗ owns (c : Thread nD τ) (st1_1 t) fullShare ((ndat V c).after 1 t)
    ∗ owns (c : Thread nD τ) (st1_2 t) fullShare ((ndat V c).after 2 t)
    ∗ owns (c : Thread nD τ) (st1_3 t) fullShare ((ndat V c).after 3 t)
    ∗ owns (c : Thread nD τ) (st1_4 t) fullShare ((ndat V c).after 4 t)
    ∗ owns (c : Thread nD τ) (st1_5 t) fullShare ((ndat V c).after 5 t)
    ∗ owns (c : Thread nD τ) (st1_6 t) fullShare ((ndat V c).after 6 t)
    ∗ owns (c : Thread nD τ) (st1_7 t) fullShare ((ndat V c).after 7 t))

/-- The body at any point: the inputs' memrefs hold their blocks, so `nkernel` applies; the invariant and the core's
    dues pass through unread. -/
theorem nbody (c : Dev nD) (t : Fin cfg1.N) :
    nPre V c t ⊢ wp frame (wpE (defs₀ (F := F)) Variants.none c none) Set.univ (bodyAt1 t) (fun _ => nPost V c t) := by
  unfold nPre nPost bodyAt1
  simp only [nbefore0, nbefore1, nbefore2, nbefore3, nbefore4, nbefore5, nbefore6]
  rw [show (ndat V c).Φ t.succ = (ndat V c).Φ t.castSucc from rfl,
    show (ndat V c).owesAt () t.succ = (ndat V c).owesAt () t.castSucc from rfl,
    nafter0, nafter1, nafter2, nafter3, nafter4, nafter5, nafter6, nafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (nkernel c Set.univ _ _ _ _ _ _ _ _ _ _ _ _ _ _ _ _ _ (nblk V c 0 t) (nblk V c 1 t) (nblk V c 2 t) (nblk V c 3 t) (nblk V c 4 t) (nblk V c 5 t) (nblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch rule's body obligation, at every point. -/
theorem n_body_obligation (c : Dev nD) : BodyObligation (ndat (F := F) V c) (defs₀ (F := F)) Variants.none () Set.univ := fun t => by
  rw [bigSep_W1, bigSep_W1]
  exact nbody V c t

end Cert.Kernel.Hand

end
-- ==== Proof.KernelBits.MainRun.lean ====
/-
  The whole run of the program, generic in the float instance: host operations, the edge network's call, host operations,
  the node network's call. The contents of the core's unscoped buffers are followed through the four stretches — each
  host stretch applies its operations; each call leaves its windows' arrays at what its write-backs fold to and every
  other buffer as it found it — and the launch rule for a program of several calls then says that every weakly fair
  execution terminates with every unscoped buffer at the last of these contents. Read at an argument the fold walks back
  to the launch memory (no host operation and no call writes an argument); read at the two results it gives the calls'
  final arrays.
-/
import proofs.«180321_j72559177498912_1_alg».proof.Proof.KernelBits.EdgeRegion
import proofs.«180321_j72559177498912_1_alg».proof.Proof.KernelBits.NodeRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch: what the edge network's call finds. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the edge network's call: its arrays at what the pipeline leaves, every other buffer as found. -/
def B2 (c : Dev nD) : Valuation τ sig (Elt F) :=
  Pipeline.withArrays spec0 c (B1 m ρ c) fun w => (edat (U1 m ρ) c).arrAt w cfg0.N
theorem B2_arr (c : Dev nD) (w : Fin cfg0.W) :
    B2 m ρ c (Proc.devRef .tc (Pipeline.arrRef spec0 w)) = (edat (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hleft0 (c : Dev nD) (w : Fin cfg0.W) : (edat (U1 m ρ) c).arrAt w cfg0.N = U2 m ρ c (Pipeline.arrRef spec0 w) :=
  (B2_arr m ρ c w).symm
theorem hkept0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After the second host stretch: what the node network's call finds. -/
abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b
/-- After the node network's call: the end. -/
def B4 (c : Dev nD) : Valuation τ sig (Elt F) :=
  Pipeline.withArrays spec1 c (B3 m ρ c) fun w => (ndat (U3 m ρ) c).arrAt w cfg1.N
theorem B4_arr (c : Dev nD) (w : Fin cfg1.W) :
    B4 m ρ c (Proc.devRef .tc (Pipeline.arrRef spec1 w)) = (ndat (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev U4 : (c : Dev nD) → (b : Ref sig .tc) → Buf (Elt F) ((c : Thread nD τ).loc b) := fun c b => B4 m ρ c b
theorem hleft1 (c : Dev nD) (w : Fin cfg1.W) : (ndat (U3 m ρ) c).arrAt w cfg1.N = U4 m ρ c (Pipeline.arrRef spec1 w) :=
  (B4_arr m ρ c w).symm
theorem hkept1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)

/-! ## A buffer no host stretch writes is carried through it -/

theorem B1_of_unwritten (c : Dev nD) (b : Ref sig .tc) (hb : b ∉ ([main_c, main_v0, main_v1, main_c_0, main_v2, main_v3, main_v4, main_v5, main_v6, main_c_1, main_v7, main_v8, main_c_2, main_v9, main_v10, main_v11, main_v12, main_v13, main_v14] : List (Ref sig .tc))) :
    B1 m ρ c (Proc.devRef .tc b) = B0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.nary_writes, Finset.mem_singleton]
    simp only [List.mem_cons, List.not_mem_nil, or_false, not_or] at hb
    obtain ⟨h0, h1, h2, h3, h4, h5, h6, h7, h8, h9, h10, h11, h12, h13, h14, h15, h16, h17, h18⟩ := hb
    refine ⟨?_, ?_, ?_, ?_, ?_, ?_, ?_, ?_, ?_, ?_, ?_, ?_, ?_, ?_, ?_, ?_, ?_, ?_, ?_⟩ <;> exact StableHlo.devRef_ne_of_ne (by assumption)))

theorem B3_of_unwritten (c : Dev nD) (b : Ref sig .tc) (hb : b ∉ ([main_cst, main_v16, main_v17, main_v18, main_v19] : List (Ref sig .tc))) :
    B3 m ρ c (Proc.devRef .tc b) = B2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.nary_writes, Finset.mem_singleton]
    simp only [List.mem_cons, List.not_mem_nil, or_false, not_or] at hb
    obtain ⟨h0, h1, h2, h3, h4⟩ := hb
    refine ⟨?_, ?_, ?_, ?_, ?_⟩ <;> exact StableHlo.devRef_ne_of_ne (by assumption)))

/-- An input window's array is left as the call found it. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((edat (U1 m ρ) c).arrAt_in w hw _).trans (edat_A (U1 m ρ) c w))
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((ndat (U3 m ρ) c).arrAt_in w hw _).trans (ndat_A (U3 m ρ) c w))

/-! ## The arguments end as launched -/

theorem B4_main_arg0 (c : Dev nD) : B4 m ρ c (Proc.devRef .tc main_arg0) = m ((c : Thread nD τ).loc main_arg0) :=
  (B4_of_ne m ρ c main_arg0 (by decide)).trans <| (B3_of_unwritten m ρ c main_arg0 (by decide)).trans <|
    (B2_of_ne m ρ c main_arg0 (by decide)).trans <| (B1_of_unwritten m ρ c main_arg0 (by decide)).trans rfl
theorem B4_main_arg1 (c : Dev nD) : B4 m ρ c (Proc.devRef .tc main_arg1) = m ((c : Thread nD τ).loc main_arg1) :=
  (B4_of_ne m ρ c main_arg1 (by decide)).trans <| (B3_of_unwritten m ρ c main_arg1 (by decide)).trans <|
    (B2_of_ne m ρ c main_arg1 (by decide)).trans <| (B1_of_unwritten m ρ c main_arg1 (by decide)).trans rfl
theorem B4_main_arg2 (c : Dev nD) : B4 m ρ c (Proc.devRef .tc main_arg2) = m ((c : Thread nD τ).loc main_arg2) :=
  (B4_of_ne m ρ c main_arg2 (by decide)).trans <| (B3_of_unwritten m ρ c main_arg2 (by decide)).trans <|
    (B2_of_ne m ρ c main_arg2 (by decide)).trans <| (B1_of_unwritten m ρ c main_arg2 (by decide)).trans rfl
theorem B4_main_arg3 (c : Dev nD) : B4 m ρ c (Proc.devRef .tc main_arg3) = m ((c : Thread nD τ).loc main_arg3) :=
  (B4_of_ne m ρ c main_arg3 (by decide)).trans <| (B3_of_unwritten m ρ c main_arg3 (by decide)).trans <|
    (B2_of_ne m ρ c main_arg3 (by decide)).trans <| (B1_of_unwritten m ρ c main_arg3 (by decide)).trans rfl
/-- The edge network's parameters are its call's input windows 1 to 6. -/
theorem B4_main_arg4 (c : Dev nD) : B4 m ρ c (Proc.devRef .tc main_arg4) = m ((c : Thread nD τ).loc main_arg4) :=
  (B4_of_ne m ρ c main_arg4 (by decide)).trans <| (B3_of_unwritten m ρ c main_arg4 (by decide)).trans <|
    (B2_in m ρ c 1 rfl).trans <| (B1_of_unwritten m ρ c main_arg4 (by decide)).trans rfl
theorem B4_main_arg5 (c : Dev nD) : B4 m ρ c (Proc.devRef .tc main_arg5) = m ((c : Thread nD τ).loc main_arg5) :=
  (B4_of_ne m ρ c main_arg5 (by decide)).trans <| (B3_of_unwritten m ρ c main_arg5 (by decide)).trans <|
    (B2_in m ρ c 2 rfl).trans <| (B1_of_unwritten m ρ c main_arg5 (by decide)).trans rfl
theorem B4_main_arg6 (c : Dev nD) : B4 m ρ c (Proc.devRef .tc main_arg6) = m ((c : Thread nD τ).loc main_arg6) :=
  (B4_of_ne m ρ c main_arg6 (by decide)).trans <| (B3_of_unwritten m ρ c main_arg6 (by decide)).trans <|
    (B2_in m ρ c 3 rfl).trans <| (B1_of_unwritten m ρ c main_arg6 (by decide)).trans rfl
theorem B4_main_arg7 (c : Dev nD) : B4 m ρ c (Proc.devRef .tc main_arg7) = m ((c : Thread nD τ).loc main_arg7) :=
  (B4_of_ne m ρ c main_arg7 (by decide)).trans <| (B3_of_unwritten m ρ c main_arg7 (by decide)).trans <|
    (B2_in m ρ c 4 rfl).trans <| (B1_of_unwritten m ρ c main_arg7 (by decide)).trans rfl
theorem B4_main_arg8 (c : Dev nD) : B4 m ρ c (Proc.devRef .tc main_arg8) = m ((c : Thread nD τ).loc main_arg8) :=
  (B4_of_ne m ρ c main_arg8 (by decide)).trans <| (B3_of_unwritten m ρ c main_arg8 (by decide)).trans <|
    (B2_in m ρ c 5 rfl).trans <| (B1_of_unwritten m ρ c main_arg8 (by decide)).trans rfl
theorem B4_main_arg9 (c : Dev nD) : B4 m ρ c (Proc.devRef .tc main_arg9) = m ((c : Thread nD τ).loc main_arg9) :=
  (B4_of_ne m ρ c main_arg9 (by decide)).trans <| (B3_of_unwritten m ρ c main_arg9 (by decide)).trans <|
    (B2_in m ρ c 6 rfl).trans <| (B1_of_unwritten m ρ c main_arg9 (by decide)).trans rfl
/-- The node network's parameters are its call's input windows 1 to 6. -/
theorem B4_main_arg10 (c : Dev nD) : B4 m ρ c (Proc.devRef .tc main_arg10) = m ((c : Thread nD τ).loc main_arg10) :=
  (B4_in m ρ c 1 rfl).trans <| (B3_of_unwritten m ρ c main_arg10 (by decide)).trans <|
    (B2_of_ne m ρ c main_arg10 (by decide)).trans <| (B1_of_unwritten m ρ c main_arg10 (by decide)).trans rfl
theorem B4_main_arg11 (c : Dev nD) : B4 m ρ c (Proc.devRef .tc main_arg11) = m ((c : Thread nD τ).loc main_arg11) :=
  (B4_in m ρ c 2 rfl).trans <| (B3_of_unwritten m ρ c main_arg11 (by decide)).trans <|
    (B2_of_ne m ρ c main_arg11 (by decide)).trans <| (B1_of_unwritten m ρ c main_arg11 (by decide)).trans rfl
theorem B4_main_arg12 (c : Dev nD) : B4 m ρ c (Proc.devRef .tc main_arg12) = m ((c : Thread nD τ).loc main_arg12) :=
  (B4_in m ρ c 3 rfl).trans <| (B3_of_unwritten m ρ c main_arg12 (by decide)).trans <|
    (B2_of_ne m ρ c main_arg12 (by decide)).trans <| (B1_of_unwritten m ρ c main_arg12 (by decide)).trans rfl
theorem B4_main_arg13 (c : Dev nD) : B4 m ρ c (Proc.devRef .tc main_arg13) = m ((c : Thread nD τ).loc main_arg13) :=
  (B4_in m ρ c 4 rfl).trans <| (B3_of_unwritten m ρ c main_arg13 (by decide)).trans <|
    (B2_of_ne m ρ c main_arg13 (by decide)).trans <| (B1_of_unwritten m ρ c main_arg13 (by decide)).trans rfl
theorem B4_main_arg14 (c : Dev nD) : B4 m ρ c (Proc.devRef .tc main_arg14) = m ((c : Thread nD τ).loc main_arg14) :=
  (B4_in m ρ c 5 rfl).trans <| (B3_of_unwritten m ρ c main_arg14 (by decide)).trans <|
    (B2_of_ne m ρ c main_arg14 (by decide)).trans <| (B1_of_unwritten m ρ c main_arg14 (by decide)).trans rfl
theorem B4_main_arg15 (c : Dev nD) : B4 m ρ c (Proc.devRef .tc main_arg15) = m ((c : Thread nD τ).loc main_arg15) :=
  (B4_in m ρ c 6 rfl).trans <| (B3_of_unwritten m ρ c main_arg15 (by decide)).trans <|
    (B2_of_ne m ρ c main_arg15 (by decide)).trans <| (B1_of_unwritten m ρ c main_arg15 (by decide)).trans rfl

/-! ## The two results at the end -/

/-- The node outputs: the node network's final result array. -/
theorem B4_nodes (c : Dev nD) : B4 m ρ c (Proc.devRef .tc main_v20) = (ndat (U3 m ρ) c).arrAt 7 cfg1.N := B4_arr m ρ c 7
/-- The edge outputs: the edge network's final result array, which nothing later writes. -/
theorem B4_edges (c : Dev nD) : B4 m ρ c (Proc.devRef .tc main_v15) = (edat (U1 m ρ) c).arrAt 7 cfg0.N :=
  (B4_of_ne m ρ c main_v15 (by decide)).trans <| (B3_of_unwritten m ρ c main_v15 (by decide)).trans (B2_arr m ρ c 7)

/-! ## The proof data family and the thread state -/

abbrev adm : (p : Fin 2) → (pcfgs (F := F) p).Adm := fun p => (cfgs p).toPCfg_adm
/-- Each call's proof data at the contents its call is entered from. -/
def pdats : (p : Fin 2) → (c : Dev nD) → Dat τ (Elt F) Unit ℕ (UR sig nD τ) ℕ (Pipeline.pin (pcfgs (F := F)) adm p) c
  | ⟨0, _⟩ => fun c => edat (U1 m ρ) c
  | ⟨1, _⟩ => fun c => ndat (U3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_nofresh : (hostOps0 : List (HloOp τ sig (Elt F))).Forall fun op => op.fresh = ∅ := by
  simp only [List.Forall]; repeat' constructor
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tend (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- The edge network's call over the thread state: entered from every unscoped buffer at `B1`, left at `B2`. Its arrays
    are split out of the unscoped buffers and put back at the exit contents; the generator register goes into the
    invariant and out; nothing is owed; the kernel has no semaphore of its own. -/
def regE : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (e_body_obligation (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hleft0 m ρ c) (hkept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node network's call over the thread state: entered from every unscoped buffer at `B3`, left at `B4`. -/
def regN : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (n_body_obligation (U3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hleft1 m ρ c) (hkept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_nofresh (B0 m ρ)),
    .region (regE m ρ),
    .host (hseg hostOps1 hostOps1_sub hostOps1_nofresh (B2 m ρ)),
    .region (regN m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c),
      (h c _ (mem_uc main_arg10 (by decide))).trans (B4_main_arg10 m ρ c),
      (h c _ (mem_uc main_arg11 (by decide))).trans (B4_main_arg11 m ρ c),
      (h c _ (mem_uc main_arg12 (by decide))).trans (B4_main_arg12 m ρ c),
      (h c _ (mem_uc main_arg13 (by decide))).trans (B4_main_arg13 m ρ c),
      (h c _ (mem_uc main_arg14 (by decide))).trans (B4_main_arg14 m ρ c),
      (h c _ (mem_uc main_arg15 (by decide))).trans (B4_main_arg15 m ρ c)⟩)
    (run_all m ρ)

/-- THE RUN, READ: the two results at the calls' final arrays, the arguments as launched. -/
theorem run_results : θ_run defs (onTc (τ := τ) (main (F := F))) ⟨m, fun _ => 0, ρ⟩ (fun r => ∀ c : Dev nD,
      r.2.mem ((c.tc : Thread nD τ).loc main_v20) = (ndat (U3 m ρ) c).arrAt 7 cfg1.N
      ∧ r.2.mem ((c.tc : Thread nD τ).loc main_v15) = (edat (U1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_uc main_v20 (by decide))).trans (B4_nodes m ρ c),
      (h c _ (mem_uc main_v15 (by decide))).trans (B4_edges m ρ c),
      (h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c),
      (h c _ (mem_uc main_arg10 (by decide))).trans (B4_main_arg10 m ρ c),
      (h c _ (mem_uc main_arg11 (by decide))).trans (B4_main_arg11 m ρ c),
      (h c _ (mem_uc main_arg12 (by decide))).trans (B4_main_arg12 m ρ c),
      (h c _ (mem_uc main_arg13 (by decide))).trans (B4_main_arg13 m ρ c),
      (h c _ (mem_uc main_arg14 (by decide))).trans (B4_main_arg14 m ρ c),
      (h c _ (mem_uc main_arg15 (by decide))).trans (B4_main_arg15 m ρ c)⟩)
    (run_all m ρ)

end Cert.Kernel.Hand

end
-- ==== Proof.HostValue.lean ====
/-
  What the host stretches put into the two calls' row arrays, generic in the float instance.

  Before the edge network's call the host builds the batch of edge rows `xe`: for each edge, its sender's node row, its
  receiver's node row (a negative index counted from the end) and its own row, side by side. Between the calls it builds
  the batch of node rows `xn`: each node's row beside the sum of the edge network's results over the edges the node
  receives. The six parameters of each network reach its call as launched.
-/
import proofs.«180321_j72559177498912_1_alg».proof.Proof.MainRun
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edge network's batch of rows. -/
def xe (a0 : (⟨S50000x128, .f32⟩ : BufTy).Contents (Elt F)) (a1 : (⟨S800000x64, .f32⟩ : BufTy).Contents (Elt F)) (a2 a3 : (⟨S800000, .i32⟩ : BufTy).Contents (Elt F)) : (⟨S800000x320, .f32⟩ : BufTy).Contents (Elt F) :=
  (concatenate S800000x320 1 [⟨S800000x128, (Host.gather gather_S50000x128_S800000x1_S800000x128_1_0_n_n_0_1_1128 a0 (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)))⟩, ⟨S800000x128, (Host.gather gather_S50000x128_S800000x1_S800000x128_1_0_n_n_0_1_1128 a0 (broadcastInDim S800000x1 ![0] bcast_S800000_S800000x1_0 (select (cmpi .slt a3 (broadcastInDim S800000 ![] bcast_S_S800000 (constantI S_ 32 0#32))) (addi a3 (broadcastInDim S800000 ![] bcast_S_S800000 (constantI S_ 32 50000#32))) a3)))⟩, ⟨S800000x64, a1⟩] concatenates_S800000x128_S800000x128_S800000x64_S800000x320_d1)

/-- The node network's batch of rows, from the edge network's results `e`. -/
def xn (a0 : (⟨S50000x128, .f32⟩ : BufTy).Contents (Elt F)) (a3 : (⟨S800000, .i32⟩ : BufTy).Contents (Elt F)) (e : (⟨S800000x128, .f32⟩ : BufTy).Contents (Elt F)) : (⟨S50000x256, .f32⟩ : BufTy).Contents (Elt F) :=
  (concatenate S50000x256 1 [⟨S50000x128, a0⟩, ⟨S50000x128, (Host.scatterAdd scatter_S50000x128_S800000x1_S800000x128_1_0_0_1 (broadcastInDim S50000x128 ![] bcast_S_S50000x128 (constant S_ .f32 0x00000000#32)) (broadcastInDim S800000x1 ![0] bcast_S800000_S800000x1_0 a3) e)⟩] concatenates_S50000x128_S50000x128_S50000x256_d1)

variable (m : (ℓ : Loc nD τ sig) → Buf (Elt F) ℓ) (ρ : Dev nD → PrngReg)

/-- The edge network's call finds the batch of edge rows in its first window's array. -/
theorem U1_rows (c : Dev nD) : U1 m ρ c main_v14 = xe (m ((c.tc : Thread nD τ).loc main_arg0)) (m ((c.tc : Thread nD τ).loc main_arg1)) (m ((c.tc : Thread nD τ).loc main_arg2)) (m ((c.tc : Thread nD τ).loc main_arg3)) := by
  show StableHlo.after hostOps0 (B0 m ρ c) (Proc.devRef .tc main_v14) = _
  unfold xe
  after_results_simp <;> rfl

theorem U1_arg4 (c : Dev nD) : U1 m ρ c main_arg4 = (m ((c.tc : Thread nD τ).loc main_arg4)) := (B1_of_unwritten m ρ c main_arg4 (by decide)).trans rfl
theorem U1_arg5 (c : Dev nD) : U1 m ρ c main_arg5 = (m ((c.tc : Thread nD τ).loc main_arg5)) := (B1_of_unwritten m ρ c main_arg5 (by decide)).trans rfl
theorem U1_arg6 (c : Dev nD) : U1 m ρ c main_arg6 = (m ((c.tc : Thread nD τ).loc main_arg6)) := (B1_of_unwritten m ρ c main_arg6 (by decide)).trans rfl
theorem U1_arg7 (c : Dev nD) : U1 m ρ c main_arg7 = (m ((c.tc : Thread nD τ).loc main_arg7)) := (B1_of_unwritten m ρ c main_arg7 (by decide)).trans rfl
theorem U1_arg8 (c : Dev nD) : U1 m ρ c main_arg8 = (m ((c.tc : Thread nD τ).loc main_arg8)) := (B1_of_unwritten m ρ c main_arg8 (by decide)).trans rfl
theorem U1_arg9 (c : Dev nD) : U1 m ρ c main_arg9 = (m ((c.tc : Thread nD τ).loc main_arg9)) := (B1_of_unwritten m ρ c main_arg9 (by decide)).trans rfl

/-- A buffer neither host stretch writes and the edge network's call does not window reaches the node network's call as launched. -/
theorem B3_launch (c : Dev nD) (b : Ref sig .tc) (h1 : b ∉ ([main_cst, main_v16, main_v17, main_v18, main_v19] : List (Ref sig .tc)))
    (h2 : ∀ w, Pipeline.arrRef spec0 w ≠ b)
    (h3 : b ∉ ([main_c, main_v0, main_v1, main_c_0, main_v2, main_v3, main_v4, main_v5, main_v6, main_c_1, main_v7, main_v8, main_c_2, main_v9, main_v10, main_v11, main_v12, main_v13, main_v14] : List (Ref sig .tc))) :
    B3 m ρ c (Proc.devRef .tc b) = m ((c.tc : Thread nD τ).loc b) :=
  (B3_of_unwritten m ρ c b h1).trans <| (B2_of_ne m ρ c b h2).trans <| (B1_of_unwritten m ρ c b h3).trans rfl

/-- The node network's call finds the batch of node rows, built from the edge network's final result array. -/
theorem U3_rows (c : Dev nD) : U3 m ρ c main_v19 = xn (m ((c.tc : Thread nD τ).loc main_arg0)) (m ((c.tc : Thread nD τ).loc main_arg3)) ((edat (U1 m ρ) c).arrAt 7 cfg0.N) := by
  show StableHlo.after hostOps1 (B2 m ρ c) (Proc.devRef .tc main_v19) = _
  have h0 : B2 m ρ c (Proc.devRef .tc main_arg0) = m ((c.tc : Thread nD τ).loc main_arg0) :=
    (B2_of_ne m ρ c main_arg0 (by decide)).trans ((B1_of_unwritten m ρ c main_arg0 (by decide)).trans rfl)
  have h3 : B2 m ρ c (Proc.devRef .tc main_arg3) = m ((c.tc : Thread nD τ).loc main_arg3) :=
    (B2_of_ne m ρ c main_arg3 (by decide)).trans ((B1_of_unwritten m ρ c main_arg3 (by decide)).trans rfl)
  have h15 : B2 m ρ c (Proc.devRef .tc main_v15) = (edat (U1 m ρ) c).arrAt 7 cfg0.N := B2_arr m ρ c 7
  unfold xn
  after_results
  rw [h0, h3, h15]

theorem U3_arg10 (c : Dev nD) : U3 m ρ c main_arg10 = (m ((c.tc : Thread nD τ).loc main_arg10)) := B3_launch m ρ c main_arg10 (by decide) (by decide) (by decide)
theorem U3_arg11 (c : Dev nD) : U3 m ρ c main_arg11 = (m ((c.tc : Thread nD τ).loc main_arg11)) := B3_launch m ρ c main_arg11 (by decide) (by decide) (by decide)
theorem U3_arg12 (c : Dev nD) : U3 m ρ c main_arg12 = (m ((c.tc : Thread nD τ).loc main_arg12)) := B3_launch m ρ c main_arg12 (by decide) (by decide) (by decide)
theorem U3_arg13 (c : Dev nD) : U3 m ρ c main_arg13 = (m ((c.tc : Thread nD τ).loc main_arg13)) := B3_launch m ρ c main_arg13 (by decide) (by decide) (by decide)
theorem U3_arg14 (c : Dev nD) : U3 m ρ c main_arg14 = (m ((c.tc : Thread nD τ).loc main_arg14)) := B3_launch m ρ c main_arg14 (by decide) (by decide) (by decide)
theorem U3_arg15 (c : Dev nD) : U3 m ρ c main_arg15 = (m ((c.tc : Thread nD τ).loc main_arg15)) := B3_launch m ρ c main_arg15 (by decide) (by decide) (by decide)

end Cert.KernelIdeal.Hand

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibDenseLayer.lean ====
/-
  A dense layer, entry by entry, over the extended reals.

  `lin x W b` is the affine map  x · W + b  of a batch of rows: entry (p, q) is  ∑ₖ x[p, k] · W[k, q] + b[q].
  `relu v` is the entrywise maximum with zero.  `mlp3` chains three affine maps with a relu after the first two.
  Every entry of row p of the result depends on row p of `x` only (`lin_row`, `mlp3_row`), so the rows of a batch
  may be computed block by block.

  Two spellings of one layer are read to this form: a matrix unit's product of the operands narrowed to bf16 (the
  identity over the reals) accumulated into zero, plus the bias cast to one row and laid along every row; and a host
  `dot_general` plus the bias broadcast along axis 1 and then down the rows.  Likewise the two spellings of relu:
  the maximum with a splat of the zero scalar, and with a broadcast of the zero constant.
-/
import Idealize.ShloMosaic.PureOps.Ideal.Laws
import Idealize.ShloMosaic.Lib.ValueIdx
import Idealize.ShloMosaic.Lib.Pipeline.Value
import Idealize.ShloMosaic.Lib.KernelVsHost
import proofs.«180321_j72559177498912_1_alg».proof.Proof.LibMatmulAt

noncomputable section

namespace Idealize.ShloMosaic.DenseLayer

open Idealize.ShloMosaic Idealize.ShloMosaic.ValueIdx

/-- x · W + b at entry (p, q): the sum over the contracted axis plus the bias at the column. -/
def lin {A K B : Nat} (x : FVec Ideal (⟨2, ![A, K]⟩ : Shape) .f32) (W : FVec Ideal (⟨2, ![K, B]⟩ : Shape) .f32)
    (b : FVec Ideal (⟨1, ![B]⟩ : Shape) .f32) : FVec Ideal (⟨2, ![A, B]⟩ : Shape) .f32 :=
  fun i => (∑ k : Fin K, x (ix2 (i 0) k) * W (ix2 k (i 1))) + b (ix1 (i 1))

/-- The entrywise maximum with zero. -/
def relu {S : Shape} (v : FVec Ideal S .f32) : FVec Ideal S .f32 := fun i => max (v i) 0

/-- Three affine maps, a relu after the first and after the second. -/
def mlp3 {A K0 K1 K2 B : Nat} (x : FVec Ideal (⟨2, ![A, K0]⟩ : Shape) .f32)
    (W0 : FVec Ideal (⟨2, ![K0, K1]⟩ : Shape) .f32) (b0 : FVec Ideal (⟨1, ![K1]⟩ : Shape) .f32)
    (W1 : FVec Ideal (⟨2, ![K1, K2]⟩ : Shape) .f32) (b1 : FVec Ideal (⟨1, ![K2]⟩ : Shape) .f32)
    (W2 : FVec Ideal (⟨2, ![K2, B]⟩ : Shape) .f32) (b2 : FVec Ideal (⟨1, ![B]⟩ : Shape) .f32) :
    FVec Ideal (⟨2, ![A, B]⟩ : Shape) .f32 :=
  lin (relu (lin (relu (lin x W0 b0)) W1 b1)) W2 b2

theorem lin_apply {A K B : Nat} (x : FVec Ideal (⟨2, ![A, K]⟩ : Shape) .f32) (W : FVec Ideal (⟨2, ![K, B]⟩ : Shape) .f32)
    (b : FVec Ideal (⟨1, ![B]⟩ : Shape) .f32) (p : Fin A) (q : Fin B) :
    lin x W b (ix2 p q) = (∑ k : Fin K, x (ix2 p k) * W (ix2 k q)) + b (ix1 q) := rfl

/-- Row p of `lin x W b` depends on row p of `x` only. -/
theorem lin_row {A A' K B : Nat} (x : FVec Ideal (⟨2, ![A, K]⟩ : Shape) .f32) (x' : FVec Ideal (⟨2, ![A', K]⟩ : Shape) .f32)
    (W : FVec Ideal (⟨2, ![K, B]⟩ : Shape) .f32) (b : FVec Ideal (⟨1, ![B]⟩ : Shape) .f32) (p : Fin A) (p' : Fin A')
    (h : ∀ k : Fin K, x (ix2 p k) = x' (ix2 p' k)) (q : Fin B) :
    lin x W b (ix2 p q) = lin x' W b (ix2 p' q) := by
  -- both sides are the sum over k plus the bias; the summands agree term by term
  rw [lin_apply, lin_apply]
  refine congrArg (fun s => s + b (ix1 q)) (Finset.sum_congr rfl fun k _ => ?_)
  rw [h k]

/-- Row p of `mlp3 x …` depends on row p of `x` only. -/
theorem mlp3_row {A A' K0 K1 K2 B : Nat} (x : FVec Ideal (⟨2, ![A, K0]⟩ : Shape) .f32) (x' : FVec Ideal (⟨2, ![A', K0]⟩ : Shape) .f32)
    (W0 : FVec Ideal (⟨2, ![K0, K1]⟩ : Shape) .f32) (b0 : FVec Ideal (⟨1, ![K1]⟩ : Shape) .f32)
    (W1 : FVec Ideal (⟨2, ![K1, K2]⟩ : Shape) .f32) (b1 : FVec Ideal (⟨1, ![K2]⟩ : Shape) .f32)
    (W2 : FVec Ideal (⟨2, ![K2, B]⟩ : Shape) .f32) (b2 : FVec Ideal (⟨1, ![B]⟩ : Shape) .f32) (p : Fin A) (p' : Fin A')
    (h : ∀ k : Fin K0, x (ix2 p k) = x' (ix2 p' k)) (q : Fin B) :
    mlp3 x W0 b0 W1 b1 W2 b2 (ix2 p q) = mlp3 x' W0 b0 W1 b1 W2 b2 (ix2 p' q) := by
  -- the row property passes through each affine map, and relu acts entry by entry
  unfold mlp3
  refine lin_row _ _ W2 b2 p p' (fun k2 => ?_) q
  show max (lin (relu (lin x W0 b0)) W1 b1 (ix2 p k2)) 0 = max (lin (relu (lin x' W0 b0)) W1 b1 (ix2 p' k2)) 0
  refine congrArg (fun s => max s 0) (lin_row _ _ W1 b1 p p' (fun k1 => ?_) k2)
  show max (lin x W0 b0 (ix2 p k1)) 0 = max (lin x' W0 b0 (ix2 p' k1)) 0
  exact congrArg (fun s => max s 0) (lin_row x x' W0 b0 p p' h k1)

/-- Dimension numbers of a plain matrix product: one contracted axis of extent K, the left operand read at
    (row, k), the right at (k, column). -/
structure RowCol {A K B : Nat} (D : DotDims (⟨2, ![A, K]⟩ : Shape) (⟨2, ![K, B]⟩ : Shape) (⟨2, ![A, B]⟩ : Shape)) : Prop where
  hr : D.contr.rank = 1
  hs : D.contr.size ⟨0, by omega⟩ = K
  hl0 : ∀ (i : (⟨2, ![A, B]⟩ : Shape).Idx) (q : D.contr.Idx), (D.lhsIdx i q 0).val = (i 0).val
  hl1 : ∀ (i : (⟨2, ![A, B]⟩ : Shape).Idx) (q : D.contr.Idx), (D.lhsIdx i q 1).val = (q ⟨0, by omega⟩).val
  hr0 : ∀ (i : (⟨2, ![A, B]⟩ : Shape).Idx) (q : D.contr.Idx), (D.rhsIdx i q 0).val = (q ⟨0, by omega⟩).val
  hr1 : ∀ (i : (⟨2, ![A, B]⟩ : Shape).Idx) (q : D.contr.Idx), (D.rhsIdx i q 1).val = (i 1).val

/-- The matrix unit's spelling of a layer. -/
theorem kernel_layer {A K B : Nat} (D : DotDims (⟨2, ![A, K]⟩ : Shape) (⟨2, ![K, B]⟩ : Shape) (⟨2, ![A, B]⟩ : Shape)) (hD : RowCol D)
    (prec : Option ContractPrecision) (x : FVec Ideal (⟨2, ![A, K]⟩ : Shape) .f32) (W : FVec Ideal (⟨2, ![K, B]⟩ : Shape) .f32)
    (b : FVec Ideal (⟨1, ![B]⟩ : Shape) .f32) (hx : FTy.bf16.bits < FTy.f32.bits) (hW : FTy.bf16.bits < FTy.f32.bits)
    (h1 : (⟨1, ![B]⟩ : Shape).ShapeCasts ⟨2, ![1, B]⟩) (hb : (⟨2, ![1, B]⟩ : Shape).Broadcasts ⟨2, ![A, B]⟩) :
    addf (matmul D prec (truncf .bf16 x hx) (truncf .bf16 W hW) (constant (F := Ideal) (⟨2, ![A, B]⟩ : Shape) .f32 0x00000000#32))
        (broadcastTo (⟨2, ![A, B]⟩ : Shape) (shapeCast (⟨2, ![1, B]⟩ : Shape) b h1) hb)
      = lin x W b := by
  funext i
  obtain ⟨p, q, rfl⟩ : ∃ (p : Fin A) (q : Fin B), i = ix2 p q := ⟨i 0, i 1, eq_ix2 i⟩
  rw [addf_apply, lin_apply]
  -- the product: narrowing is the identity, and the product into zero is the sum over k
  have em : matmul D prec (truncf .bf16 x hx) (truncf .bf16 W hW)
        (constant (F := Ideal) (⟨2, ![A, B]⟩ : Shape) .f32 0x00000000#32) (ix2 p q)
      = ∑ k : Fin K, x (ix2 p k) * W (ix2 k q) :=
    MatmulAt.matmul_zero_at D hD.hr hD.hs hD.hl0 hD.hl1 hD.hr0 hD.hr1 prec (truncf .bf16 x hx) (truncf .bf16 W hW) p q
  -- the bias: entry (p, q) of the broadcast is entry (0, q) of the one-row cast, which is entry q of the vector
  have eb : broadcastTo (⟨2, ![A, B]⟩ : Shape) (shapeCast (⟨2, ![1, B]⟩ : Shape) b h1) hb (ix2 p q) = b (ix1 q) := by
    refine (broadcastTo_apply _ hb (ix2 p q) (ix2 (0 : Fin 1) q) ?_).trans
      (shapeCast_apply b h1 (ix2 (0 : Fin 1) q) (ix1 q) ?_)
    · intro a
      match a with
      | ⟨0, _⟩ => rfl
      | ⟨1, _⟩ =>
        show q.val = if B = 1 then 0 else q.val
        split
        · have := q.isLt; omega
        · rfl
    · rw [Shape.rowMajor_val_two, Shape.rowMajor_val_one]
      show q.val = 0 * B + q.val
      omega
  rw [em, eb]

/-- The kernel's relu: the maximum with a splat of the zero scalar. -/
theorem kernel_relu {S : Shape} (v : FVec Ideal S .f32) :
    maximumf v (broadcast S (Scalar.ofBits (F := Ideal) .f32 0x00000000#32)) = relu v := by
  funext i
  -- the all-zero word encodes the real zero
  show max (v i) (Ideal.ofBits .f32 0x00000000#32) = max (v i) 0
  rw [Ideal.ofBits_zero_f32]

/-- The host's spelling of a layer. -/
theorem host_layer {A K B : Nat} (D : DotDims (⟨2, ![A, K]⟩ : Shape) (⟨2, ![K, B]⟩ : Shape) (⟨2, ![A, B]⟩ : Shape)) (hD : RowCol D)
    (prec : Option ContractPrecision) (x : FVec Ideal (⟨2, ![A, K]⟩ : Shape) .f32) (W : FVec Ideal (⟨2, ![K, B]⟩ : Shape) .f32)
    (b : FVec Ideal (⟨1, ![B]⟩ : Shape) .f32)
    (h1 : (⟨1, ![B]⟩ : Shape).BroadcastsInDim ⟨2, ![1, B]⟩ ![1]) (h2 : (⟨2, ![1, B]⟩ : Shape).BroadcastsInDim ⟨2, ![A, B]⟩ ![0, 1]) :
    addf (Host.dotGeneral D prec x W)
        (broadcastInDim (⟨2, ![A, B]⟩ : Shape) ![0, 1] h2 (broadcastInDim (⟨2, ![1, B]⟩ : Shape) ![1] h1 b))
      = lin x W b := by
  funext i
  obtain ⟨p, q, rfl⟩ : ∃ (p : Fin A) (q : Fin B), i = ix2 p q := ⟨i 0, i 1, eq_ix2 i⟩
  rw [addf_apply, lin_apply]
  -- the product with no accumulator is the product into zero, hence the sum over k
  have em : Host.dotGeneral D prec x W (ix2 p q) = ∑ k : Fin K, x (ix2 p k) * W (ix2 k q) := by
    rw [← matmul_zero_eq_dotGeneral]
    exact MatmulAt.matmul_zero_at D hD.hr hD.hs hD.hl0 hD.hl1 hD.hr0 hD.hr1 prec x W p q
  -- the bias: entry (p, q) of the broadcast down the rows is entry (0, q) of the one-row matrix, which is entry q
  have eb : broadcastInDim (⟨2, ![A, B]⟩ : Shape) ![0, 1] h2 (broadcastInDim (⟨2, ![1, B]⟩ : Shape) ![1] h1 b) (ix2 p q)
      = b (ix1 q) := by
    refine (broadcastInDim_oneRow_apply h2 _ p q).trans
      (broadcastInDim_apply ![1] h1 b (ix2 (0 : Fin 1) q) (ix1 q) ?_)
    intro a
    match a with
    | ⟨0, _⟩ =>
      show q.val = if B = 1 then 0 else q.val
      split
      · have := q.isLt; omega
      · rfl
  rw [em, eb]

/-- The host's relu: the maximum with a broadcast of the zero constant. -/
theorem host_relu {S : Shape} (v : FVec Ideal S .f32) (h : (⟨0, ![]⟩ : Shape).BroadcastsInDim S ![]) :
    maximumf v (broadcastInDim S ![] h (constant (F := Ideal) (⟨0, ![]⟩ : Shape) .f32 0x00000000#32)) = relu v := by
  -- a broadcast constant is the splat of its scalar
  rw [broadcastInDim_constant]
  exact kernel_relu v

end Idealize.ShloMosaic.DenseLayer

end
-- ==== Proof.PayloadValue.lean ====
/-
  The two kernel bodies' one stored value, over the extended reals: the three-layer network of the loaded blocks.

  At a grid point the edge network's body stores, over its whole result block, the sum with the third bias of the matrix
  product of (the relu of (the sum with the second bias of the product of (the relu of (the sum with the first bias of
  the product of the row block and the first weights)) and the second weights)) and the third weights; every operand of a
  product is first narrowed to bf16, which over the reals is the identity, and every product accumulates into a zero
  block. Each layer is `DenseLayer.lin` and each relu `DenseLayer.relu`, so the stored value is `DenseLayer.mlp3` of the
  seven loaded blocks. The node network's body is the same at its own sizes.
-/
import proofs.«180321_j72559177498912_1_alg».proof.Proof.Gen.KernelIdeal.Skeleton
import proofs.«180321_j72559177498912_1_alg».proof.Proof.LibDenseLayer

noncomputable section

namespace Cert.KernelIdeal.Hand

open Cert.KernelIdeal Cert.KernelIdeal.Gen
open Idealize.ShloMosaic Idealize.ShloMosaic.ValueIdx Idealize.ShloMosaic.DenseLayer

/-! ## The five products' dimension numbers: one contracted axis, rows on the left, columns on the right -/

/-- A multi-index read at two positions that are the same number gives the same coordinate. -/
private theorem coord_congr {S : Shape} (i : S.Idx) (p q : Nat) (hp : p < S.rank) (hq : q < S.rank) (h : p = q) :
    (i ⟨p, hp⟩).val = (i ⟨q, hq⟩).val := by
  subst h; rfl

/-- Any dimension numbers of two matrices that contract axis 1 of the left operand with axis 0 of the right, keep
    axis 0 of the left and axis 1 of the right, and have no batch axes, are those of a plain matrix product. -/
private theorem rowcol_of_lists {A K B : Nat}
    (D : DotDims (⟨2, ![A, K]⟩ : Shape) (⟨2, ![K, B]⟩ : Shape) (⟨2, ![A, B]⟩ : Shape))
    (hlc : D.lhsContracting = [1]) (hrc : D.rhsContracting = [0])
    (hln : D.lhsNonContracting = [0]) (hrn : D.rhsNonContracting = [1])
    (hlb : D.lhsBatch = []) (hrb : D.rhsBatch = []) : RowCol D where
  -- the contracted shape lists the sizes of the left operand's contracted axes: one axis, of extent K
  hr := by rw [D.rank_contr, hlc]; rfl
  hs := by
    have h := D.size_contr 0 (by rw [hlc]; exact Nat.one_pos)
    rw [h, List.getElem_of_eq hlc]
    rfl
  -- axis 0 of the left operand is kept, first among the result's axes (no batch axes come before it): it reads
  -- the result index at position 0
  hl0 := fun i q => by
    unfold DotDims.lhsIdx
    rw [dif_neg (by rw [hlb]; exact List.not_mem_nil), dif_pos (by rw [hln]; exact List.mem_singleton.mpr rfl)]
    simp only [Fin.val_cast]
    exact coord_congr i _ _ _ _ (by simp [hlb, hln])
  -- the one contracted axis of either operand reads the contraction index's one coordinate
  hl1 := fun i q => D.lhsIdx_val_of_single hlc i q
  hr0 := fun i q => D.rhsIdx_val_of_single hrc i q
  -- axis 1 of the right operand is kept, after the left operand's one kept axis: it reads the result index at
  -- position 0 + 1 + 0 = 1
  hr1 := fun i q => by
    unfold DotDims.rhsIdx
    rw [dif_neg (by rw [hrb]; exact List.not_mem_nil), dif_pos (by rw [hrn]; exact List.mem_singleton.mpr rfl)]
    simp only [Fin.val_cast]
    exact coord_congr i _ _ _ _ (by simp [hlb, hln, hrn])

theorem rowcol_e0 : RowCol dot_S4000x320_S320x256_S4000x256_1_0_0_1_n_n :=
  rowcol_of_lists _ rfl rfl rfl rfl rfl rfl
theorem rowcol_e1 : RowCol dot_S4000x256_S256x256_S4000x256_1_0_0_1_n_n :=
  rowcol_of_lists _ rfl rfl rfl rfl rfl rfl
theorem rowcol_e2 : RowCol dot_S4000x256_S256x128_S4000x128_1_0_0_1_n_n :=
  rowcol_of_lists _ rfl rfl rfl rfl rfl rfl
theorem rowcol_n01 : RowCol dot_S5000x256_S256x256_S5000x256_1_0_0_1_n_n :=
  rowcol_of_lists _ rfl rfl rfl rfl rfl rfl
theorem rowcol_n2 : RowCol dot_S5000x256_S256x128_S5000x128_1_0_0_1_n_n :=
  rowcol_of_lists _ rfl rfl rfl rfl rfl rfl

/-! ## The stored values -/

/-- The edge network's stored value is the three-layer network of its loaded blocks. -/
theorem epay_eq (v0 : Vec Ideal S4000x320 .f32) (v3 : Vec Ideal S320x256 .f32) (v6 : Vec Ideal S256 .f32) (v13 : Vec Ideal S256x256 .f32)
    (v16 : Vec Ideal S256 .f32) (v23 : Vec Ideal S256x128 .f32) (v26 : Vec Ideal S128 .f32) :
    k0_pay1 (F := Ideal) v0 v3 v6 v13 v16 v23 v26 = mlp3 v0 v3 v6 v13 v16 v23 v26 := by
  -- the stored value, written out: three products with bias, a maximum with zero after the first two
  unfold k0_pay1
  dsimp only
  -- the row block cast to its own shape is itself
  rw [shapeCast_self v0 shapeCasts_S4000x320_S4000x320]
  -- innermost first: the first layer, its relu, the second layer, its relu, the third layer
  rw [kernel_layer _ rowcol_e0 none v0 v3 v6 bitsLt_bf16_f32 bitsLt_bf16_f32 shapeCasts_S256_S1x256
    broadcasts_S1x256_S4000x256]
  rw [kernel_relu (lin v0 v3 v6)]
  rw [kernel_layer _ rowcol_e1 none (relu (lin v0 v3 v6)) v13 v16 bitsLt_bf16_f32 bitsLt_bf16_f32
    shapeCasts_S256_S1x256 broadcasts_S1x256_S4000x256]
  rw [kernel_relu (lin (relu (lin v0 v3 v6)) v13 v16)]
  rw [kernel_layer _ rowcol_e2 none (relu (lin (relu (lin v0 v3 v6)) v13 v16)) v23 v26 bitsLt_bf16_f32
    bitsLt_bf16_f32 shapeCasts_S128_S1x128 broadcasts_S1x128_S4000x128]
  -- what is left is the definition of the three-layer network
  rfl

/-- The node network's stored value is the three-layer network of its loaded blocks. -/
theorem npay_eq (v0 : Vec Ideal S5000x256 .f32) (v3 : Vec Ideal S256x256 .f32) (v6 : Vec Ideal S256 .f32) (v13 : Vec Ideal S256x256 .f32)
    (v16 : Vec Ideal S256 .f32) (v23 : Vec Ideal S256x128 .f32) (v26 : Vec Ideal S128 .f32) :
    k1_pay1 (F := Ideal) v0 v3 v6 v13 v16 v23 v26 = mlp3 v0 v3 v6 v13 v16 v23 v26 := by
  -- the same three layers at the node network's sizes; its first two products share one set of dimension numbers
  unfold k1_pay1
  dsimp only
  rw [shapeCast_self v0 shapeCasts_S5000x256_S5000x256]
  rw [kernel_layer _ rowcol_n01 none v0 v3 v6 bitsLt_bf16_f32 bitsLt_bf16_f32 shapeCasts_S256_S1x256
    broadcasts_S1x256_S5000x256]
  rw [kernel_relu (lin v0 v3 v6)]
  rw [kernel_layer _ rowcol_n01 none (relu (lin v0 v3 v6)) v13 v16 bitsLt_bf16_f32 bitsLt_bf16_f32
    shapeCasts_S256_S1x256 broadcasts_S1x256_S5000x256]
  rw [kernel_relu (lin (relu (lin v0 v3 v6)) v13 v16)]
  rw [kernel_layer _ rowcol_n2 none (relu (lin (relu (lin v0 v3 v6)) v13 v16)) v23 v26 bitsLt_bf16_f32
    bitsLt_bf16_f32 shapeCasts_S128_S1x128 broadcasts_S1x128_S5000x128]
  rfl

end Cert.KernelIdeal.Hand

end
-- ==== Proof.EdgeValue.lean ====
/-
  What the edge network's call leaves in its result array, over the extended reals: the three-layer network of the array
  of concatenated rows the call finds, row by row.

  Point `t` of the grid writes back rows 4000·t … 4000·t + 3999 of the result. What it writes is the body's stored value
  of the point's input blocks: the row block of window 0 is rows 4000·t … of the rows array; the six parameter blocks are
  the whole parameter arrays. Row p of the network's value depends on row p of its batch only, so the block written at
  point `t` is that block of the network's value on the whole rows array; the 200 blocks tile the 800000 rows.
-/
import proofs.«180321_j72559177498912_1_alg».proof.Proof.EdgeRegion
import proofs.«180321_j72559177498912_1_alg».proof.Proof.PayloadValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.DenseLayer
open Idealize.ShloMosaic.Pipeline (Dat)

-- the core's buffer contents when the call is entered
variable (V : (c : Dev nD) → (b : Ref sig .tc) → Buf (Elt Ideal) ((c : Thread nD τ).loc b))

/-- The network's value on the whole rows array, as the call finds the arrays. -/
def edgesOf (c : Dev nD) : S800000x128.Idx → EReal :=
  mlp3 (V c main_v14 : S800000x320.Idx → EReal) (V c main_arg4 : S320x256.Idx → EReal) (V c main_arg5 : S256.Idx → EReal)
    (V c main_arg6 : S256x256.Idx → EReal) (V c main_arg7 : S256.Idx → EReal) (V c main_arg8 : S256x128.Idx → EReal) (V c main_arg9 : S128.Idx → EReal)

/-! ## Zero offsets, however they are spelt -/

theorem ezero2 : (![0, 0] : Fin 2 → Nat) = fun _ => 0 := funext fun a => match a with | ⟨0, _⟩ => rfl | ⟨1, _⟩ => rfl
theorem ezero1 : (![0] : Fin 1 → Nat) = fun _ => 0 := funext fun a => match a with | ⟨0, _⟩ => rfl

/-! ## The block indices over the grid -/

theorem eidx_rows : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

theorem eidx1 (t : Fin cfg0.N) : win0_1.index t (0 : Fin 2) = 0 ∧ win0_1.index t (1 : Fin 2) = 0 := ⟨rfl, rfl⟩
theorem eidx2 (t : Fin cfg0.N) : win0_2.index t (0 : Fin 1) = 0 := rfl
theorem eidx3 (t : Fin cfg0.N) : win0_3.index t (0 : Fin 2) = 0 ∧ win0_3.index t (1 : Fin 2) = 0 := ⟨rfl, rfl⟩
theorem eidx4 (t : Fin cfg0.N) : win0_4.index t (0 : Fin 1) = 0 := rfl
theorem eidx5 (t : Fin cfg0.N) : win0_5.index t (0 : Fin 2) = 0 ∧ win0_5.index t (1 : Fin 2) = 0 := ⟨rfl, rfl⟩
theorem eidx6 (t : Fin cfg0.N) : win0_6.index t (0 : Fin 1) = 0 := rfl

/-! ## Each window's block, read at an index -/

/-- Window 0's block at point `t` is rows 4000·t … 4000·t + 3999 of the rows array. -/
theorem eblk0_apply (c : Dev nD) (t : Fin cfg0.N) (y : S4000x320.Idx) (i : S800000x320.Idx)
    (h0 : (i 0).val = 4000 * t.val + (y 0).val) (h1 : (i 1).val = (y 1).val) :
    (eblk V c 0 t : Vec Ideal S4000x320 .f32) y = (V c main_v14 : S800000x320.Idx → EReal) i := by
  obtain ⟨e0, e1, -, -⟩ := eidx_rows t
  unfold eblk
  rw [View.read_apply]
  show V c main_v14 _ = V c main_v14 i
  congr 1
  funext a
  apply Fin.ext
  match a with
  | ⟨0, _⟩ => show win0_0.index t 0 * 4000 + 1 * (y 0).val = (i 0).val; rw [e0, h0]; omega
  | ⟨1, _⟩ => show win0_0.index t 1 * 320 + 1 * (y 1).val = (i 1).val; rw [e1, h1]; omega

/-- Windows 1 to 6: the block is the whole parameter array. -/
theorem eblk1_eq (c : Dev nD) (t : Fin cfg0.N) : (eblk V c 1 t : Vec Ideal S320x256 .f32) = (V c main_arg4 : S320x256.Idx → EReal) := by
  funext y
  unfold eblk
  rw [View.read_apply]
  show V c main_arg4 _ = V c main_arg4 y
  congr 1
  funext a
  apply Fin.ext
  match a with
  | ⟨0, _⟩ => show win0_1.index t 0 * 320 + 1 * (y 0).val = (y 0).val; rw [(eidx1 t).1]; omega
  | ⟨1, _⟩ => show win0_1.index t 1 * 256 + 1 * (y 1).val = (y 1).val; rw [(eidx1 t).2]; omega

theorem eblk2_eq (c : Dev nD) (t : Fin cfg0.N) : (eblk V c 2 t : Vec Ideal S256 .f32) = (V c main_arg5 : S256.Idx → EReal) := by
  funext y
  unfold eblk
  rw [View.read_apply]
  show V c main_arg5 _ = V c main_arg5 y
  congr 1
  funext a
  apply Fin.ext
  match a with
  | ⟨0, _⟩ => show win0_2.index t 0 * 256 + 1 * (y 0).val = (y 0).val; rw [eidx2 t]; omega

theorem eblk3_eq (c : Dev nD) (t : Fin cfg0.N) : (eblk V c 3 t : Vec Ideal S256x256 .f32) = (V c main_arg6 : S256x256.Idx → EReal) := by
  funext y
  unfold eblk
  rw [View.read_apply]
  show V c main_arg6 _ = V c main_arg6 y
  congr 1
  funext a
  apply Fin.ext
  match a with
  | ⟨0, _⟩ => show win0_3.index t 0 * 256 + 1 * (y 0).val = (y 0).val; rw [(eidx3 t).1]; omega
  | ⟨1, _⟩ => show win0_3.index t 1 * 256 + 1 * (y 1).val = (y 1).val; rw [(eidx3 t).2]; omega

theorem eblk4_eq (c : Dev nD) (t : Fin cfg0.N) : (eblk V c 4 t : Vec Ideal S256 .f32) = (V c main_arg7 : S256.Idx → EReal) := by
  funext y
  unfold eblk
  rw [View.read_apply]
  show V c main_arg7 _ = V c main_arg7 y
  congr 1
  funext a
  apply Fin.ext
  match a with
  | ⟨0, _⟩ => show win0_4.index t 0 * 256 + 1 * (y 0).val = (y 0).val; rw [eidx4 t]; omega

theorem eblk5_eq (c : Dev nD) (t : Fin cfg0.N) : (eblk V c 5 t : Vec Ideal S256x128 .f32) = (V c main_arg8 : S256x128.Idx → EReal) := by
  funext y
  unfold eblk
  rw [View.read_apply]
  show V c main_arg8 _ = V c main_arg8 y
  congr 1
  funext a
  apply Fin.ext
  match a with
  | ⟨0, _⟩ => show win0_5.index t 0 * 256 + 1 * (y 0).val = (y 0).val; rw [(eidx5 t).1]; omega
  | ⟨1, _⟩ => show win0_5.index t 1 * 128 + 1 * (y 1).val = (y 1).val; rw [(eidx5 t).2]; omega

theorem eblk6_eq (c : Dev nD) (t : Fin cfg0.N) : (eblk V c 6 t : Vec Ideal S128 .f32) = (V c main_arg9 : S128.Idx → EReal) := by
  funext y
  unfold eblk
  rw [View.read_apply]
  show V c main_arg9 _ = V c main_arg9 y
  congr 1
  funext a
  apply Fin.ext
  match a with
  | ⟨0, _⟩ => show win0_6.index t 0 * 128 + 1 * (y 0).val = (y 0).val; rw [eidx6 t]; omega

/-! ## What a point writes back -/

/-- Where row `p` of point `t`'s result block sits in the result array: row 4000·t + p, same column. -/
theorem eemb7 (t : Fin cfg0.N) (p : Fin 4000) (q : Fin 128) (p' : Fin 800000) (hp : p'.val = 4000 * t.val + p.val) :
    ((cfg0.win 7).blk t).view.emb (ix2 p q : S4000x128.Idx) = (ix2 p' q : S800000x128.Idx) := by
  obtain ⟨-, -, e0, e1⟩ := eidx_rows t
  funext a
  apply Fin.ext
  match a with
  | ⟨0, _⟩ => show win0_7.index t 0 * 4000 + 1 * p.val = p'.val; rw [e0, hp]; omega
  | ⟨1, _⟩ => show win0_7.index t 1 * 128 + 1 * q.val = q.val; rw [e1]; omega

/-- WHAT POINT `t` WRITES BACK is its block of the network's value on the whole rows array. -/
theorem eflushed_eq (c : Dev nD) (t : Fin cfg0.N) :
    (edat V c).flushed 7 t = ((cfg0.win 7).blk t).view.read (Elt Ideal) (edgesOf V c) := by
  show (cfg0.win 7).cut (grid0.coords t) ((edat V c).after 7 t) = _
  rw [eafter7]
  unfold eout
  rw [View.canon_unit_zero ezero2]
  simp only [View.ld_unit_zero (S := S4000x320) ezero2, View.ld_unit_zero (S := S320x256) ezero2, View.ld_unit_zero (S := S256) ezero1,
    View.ld_unit_zero (S := S256x256) ezero2, View.ld_unit_zero (S := S256x128) ezero2, View.ld_unit_zero (S := S128) ezero1]
  rw [epay_eq, eblk1_eq, eblk2_eq, eblk3_eq, eblk4_eq, eblk5_eq, eblk6_eq]
  have ht : t.val < 200 := by have h := t.isLt; have e : cfg0.N = 200 := N_0; omega
  funext (j : S4000x128.Idx)
  obtain ⟨p, q, rfl⟩ : ∃ (p : Fin 4000) (q : Fin 128), j = ix2 p q := ⟨j 0, j 1, eq_ix2 j⟩
  have hp : 4000 * t.val + p.val < 800000 := by have := p.isLt; omega
  rw [View.read_apply, eemb7 t p q ⟨4000 * t.val + p.val, hp⟩ rfl]
  show mlp3 (eblk V c 0 t : Vec Ideal S4000x320 .f32) (V c main_arg4 : S320x256.Idx → EReal) (V c main_arg5 : S256.Idx → EReal)
      (V c main_arg6 : S256x256.Idx → EReal) (V c main_arg7 : S256.Idx → EReal) (V c main_arg8 : S256x128.Idx → EReal)
      (V c main_arg9 : S128.Idx → EReal) (ix2 p q) = edgesOf V c (ix2 (⟨4000 * t.val + p.val, hp⟩ : Fin 800000) q)
  unfold edgesOf
  exact mlp3_row _ _ _ _ _ _ _ _ p ⟨4000 * t.val + p.val, hp⟩
    (fun k => eblk0_apply V c t (ix2 p k) (ix2 (⟨4000 * t.val + p.val, hp⟩ : Fin 800000) k) rfl rfl) q

/-! ## The blocks tile the result array -/

/-- An index of the result array is in point `t`'s block iff each coordinate is in the block's range on its axis. -/
theorem emem_blk7 (t : Fin cfg0.N) (i : S800000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v15).slice (win0_7.rect t)).set ↔ _
  rw [View.set_slice_whole, Rect.mem_set_unit]
  exact Iff.rfl

/-- Row r lies in the block of point r / 4000. -/
theorem ecovered (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 200 := N_0
  obtain ⟨t, ht⟩ : ∃ t : Fin cfg0.N, t.val = (i 0).val / 4000 := ⟨⟨(i 0).val / 4000, by omega⟩, rfl⟩
  refine ⟨t, flush0_7 t, ?_⟩
  rw [emem_blk7]
  obtain ⟨-, -, e0, e1⟩ := eidx_rows t
  intro a
  match a with
  | ⟨0, _⟩ => show win0_7.index t 0 * 4000 ≤ (i 0).val ∧ (i 0).val < win0_7.index t 0 * 4000 + 4000; rw [e0, ht]; omega
  | ⟨1, _⟩ => show win0_7.index t 1 * 128 ≤ (i 1).val ∧ (i 1).val < win0_7.index t 1 * 128 + 128; rw [e1]; omega

/-- THE RESULT ARRAY after the call. -/
theorem edges_final (c : Dev nD) : (edat V c).arrAt 7 cfg0.N = edgesOf V c :=
  (edat V c).arrAt_eq_of_cover 7 (edgesOf V c) (fun t _ => eflushed_eq V c t) ecovered

end Cert.KernelIdeal.Hand

end
-- ==== Proof.NodeValue.lean ====
/-
  What the node network's call leaves in its result array, over the extended reals: the three-layer network of the array
  of concatenated rows the call finds, row by row.

  Point `t` of the grid writes back rows 5000·t … 5000·t + 4999 of the result. What it writes is the body's stored value
  of the point's input blocks: the row block of window 0 is rows 5000·t … of the rows array; the six parameter blocks are
  the whole parameter arrays. Row p of the network's value depends on row p of its batch only, so the block written at
  point `t` is that block of the network's value on the whole rows array; the 10 blocks tile the 50000 rows.
-/
import proofs.«180321_j72559177498912_1_alg».proof.Proof.NodeRegion
import proofs.«180321_j72559177498912_1_alg».proof.Proof.PayloadValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.DenseLayer
open Idealize.ShloMosaic.Pipeline (Dat)

-- the core's buffer contents when the call is entered
variable (V : (c : Dev nD) → (b : Ref sig .tc) → Buf (Elt Ideal) ((c : Thread nD τ).loc b))

/-- The network's value on the whole rows array, as the call finds the arrays. -/
def nodesOf (c : Dev nD) : S50000x128.Idx → EReal :=
  mlp3 (V c main_v19 : S50000x256.Idx → EReal) (V c main_arg10 : S256x256.Idx → EReal) (V c main_arg11 : S256.Idx → EReal)
    (V c main_arg12 : S256x256.Idx → EReal) (V c main_arg13 : S256.Idx → EReal) (V c main_arg14 : S256x128.Idx → EReal) (V c main_arg15 : S128.Idx → EReal)

/-! ## Zero offsets, however they are spelt -/

theorem nzero2 : (![0, 0] : Fin 2 → Nat) = fun _ => 0 := funext fun a => match a with | ⟨0, _⟩ => rfl | ⟨1, _⟩ => rfl
theorem nzero1 : (![0] : Fin 1 → Nat) = fun _ => 0 := funext fun a => match a with | ⟨0, _⟩ => rfl

/-! ## The block indices over the grid -/

theorem nidx_rows : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

theorem nidx1 (t : Fin cfg1.N) : win1_1.index t (0 : Fin 2) = 0 ∧ win1_1.index t (1 : Fin 2) = 0 := ⟨rfl, rfl⟩
theorem nidx2 (t : Fin cfg1.N) : win1_2.index t (0 : Fin 1) = 0 := rfl
theorem nidx3 (t : Fin cfg1.N) : win1_3.index t (0 : Fin 2) = 0 ∧ win1_3.index t (1 : Fin 2) = 0 := ⟨rfl, rfl⟩
theorem nidx4 (t : Fin cfg1.N) : win1_4.index t (0 : Fin 1) = 0 := rfl
theorem nidx5 (t : Fin cfg1.N) : win1_5.index t (0 : Fin 2) = 0 ∧ win1_5.index t (1 : Fin 2) = 0 := ⟨rfl, rfl⟩
theorem nidx6 (t : Fin cfg1.N) : win1_6.index t (0 : Fin 1) = 0 := rfl

/-! ## Each window's block, read at an index -/

/-- Window 0's block at point `t` is rows 5000·t … 5000·t + 4999 of the rows array. -/
theorem nblk0_apply (c : Dev nD) (t : Fin cfg1.N) (y : S5000x256.Idx) (i : S50000x256.Idx)
    (h0 : (i 0).val = 5000 * t.val + (y 0).val) (h1 : (i 1).val = (y 1).val) :
    (nblk V c 0 t : Vec Ideal S5000x256 .f32) y = (V c main_v19 : S50000x256.Idx → EReal) i := by
  obtain ⟨e0, e1, -, -⟩ := nidx_rows t
  unfold nblk
  rw [View.read_apply]
  show V c main_v19 _ = V c main_v19 i
  congr 1
  funext a
  apply Fin.ext
  match a with
  | ⟨0, _⟩ => show win1_0.index t 0 * 5000 + 1 * (y 0).val = (i 0).val; rw [e0, h0]; omega
  | ⟨1, _⟩ => show win1_0.index t 1 * 256 + 1 * (y 1).val = (i 1).val; rw [e1, h1]; omega

/-- Windows 1 to 6: the block is the whole parameter array. -/
theorem nblk1_eq (c : Dev nD) (t : Fin cfg1.N) : (nblk V c 1 t : Vec Ideal S256x256 .f32) = (V c main_arg10 : S256x256.Idx → EReal) := by
  funext y
  unfold nblk
  rw [View.read_apply]
  show V c main_arg10 _ = V c main_arg10 y
  congr 1
  funext a
  apply Fin.ext
  match a with
  | ⟨0, _⟩ => show win1_1.index t 0 * 256 + 1 * (y 0).val = (y 0).val; rw [(nidx1 t).1]; omega
  | ⟨1, _⟩ => show win1_1.index t 1 * 256 + 1 * (y 1).val = (y 1).val; rw [(nidx1 t).2]; omega

theorem nblk2_eq (c : Dev nD) (t : Fin cfg1.N) : (nblk V c 2 t : Vec Ideal S256 .f32) = (V c main_arg11 : S256.Idx → EReal) := by
  funext y
  unfold nblk
  rw [View.read_apply]
  show V c main_arg11 _ = V c main_arg11 y
  congr 1
  funext a
  apply Fin.ext
  match a with
  | ⟨0, _⟩ => show win1_2.index t 0 * 256 + 1 * (y 0).val = (y 0).val; rw [nidx2 t]; omega

theorem nblk3_eq (c : Dev nD) (t : Fin cfg1.N) : (nblk V c 3 t : Vec Ideal S256x256 .f32) = (V c main_arg12 : S256x256.Idx → EReal) := by
  funext y
  unfold nblk
  rw [View.read_apply]
  show V c main_arg12 _ = V c main_arg12 y
  congr 1
  funext a
  apply Fin.ext
  match a with
  | ⟨0, _⟩ => show win1_3.index t 0 * 256 + 1 * (y 0).val = (y 0).val; rw [(nidx3 t).1]; omega
  | ⟨1, _⟩ => show win1_3.index t 1 * 256 + 1 * (y 1).val = (y 1).val; rw [(nidx3 t).2]; omega

theorem nblk4_eq (c : Dev nD) (t : Fin cfg1.N) : (nblk V c 4 t : Vec Ideal S256 .f32) = (V c main_arg13 : S256.Idx → EReal) := by
  funext y
  unfold nblk
  rw [View.read_apply]
  show V c main_arg13 _ = V c main_arg13 y
  congr 1
  funext a
  apply Fin.ext
  match a with
  | ⟨0, _⟩ => show win1_4.index t 0 * 256 + 1 * (y 0).val = (y 0).val; rw [nidx4 t]; omega

theorem nblk5_eq (c : Dev nD) (t : Fin cfg1.N) : (nblk V c 5 t : Vec Ideal S256x128 .f32) = (V c main_arg14 : S256x128.Idx → EReal) := by
  funext y
  unfold nblk
  rw [View.read_apply]
  show V c main_arg14 _ = V c main_arg14 y
  congr 1
  funext a
  apply Fin.ext
  match a with
  | ⟨0, _⟩ => show win1_5.index t 0 * 256 + 1 * (y 0).val = (y 0).val; rw [(nidx5 t).1]; omega
  | ⟨1, _⟩ => show win1_5.index t 1 * 128 + 1 * (y 1).val = (y 1).val; rw [(nidx5 t).2]; omega

theorem nblk6_eq (c : Dev nD) (t : Fin cfg1.N) : (nblk V c 6 t : Vec Ideal S128 .f32) = (V c main_arg15 : S128.Idx → EReal) := by
  funext y
  unfold nblk
  rw [View.read_apply]
  show V c main_arg15 _ = V c main_arg15 y
  congr 1
  funext a
  apply Fin.ext
  match a with
  | ⟨0, _⟩ => show win1_6.index t 0 * 128 + 1 * (y 0).val = (y 0).val; rw [nidx6 t]; omega

/-! ## What a point writes back -/

/-- Where row `p` of point `t`'s result block sits in the result array: row 5000·t + p, same column. -/
theorem nemb7 (t : Fin cfg1.N) (p : Fin 5000) (q : Fin 128) (p' : Fin 50000) (hp : p'.val = 5000 * t.val + p.val) :
    ((cfg1.win 7).blk t).view.emb (ix2 p q : S5000x128.Idx) = (ix2 p' q : S50000x128.Idx) := by
  obtain ⟨-, -, e0, e1⟩ := nidx_rows t
  funext a
  apply Fin.ext
  match a with
  | ⟨0, _⟩ => show win1_7.index t 0 * 5000 + 1 * p.val = p'.val; rw [e0, hp]; omega
  | ⟨1, _⟩ => show win1_7.index t 1 * 128 + 1 * q.val = q.val; rw [e1]; omega

/-- WHAT POINT `t` WRITES BACK is its block of the network's value on the whole rows array. -/
theorem nflushed_eq (c : Dev nD) (t : Fin cfg1.N) :
    (ndat V c).flushed 7 t = ((cfg1.win 7).blk t).view.read (Elt Ideal) (nodesOf V c) := by
  show (cfg1.win 7).cut (grid1.coords t) ((ndat V c).after 7 t) = _
  rw [nafter7]
  unfold nout
  rw [View.canon_unit_zero nzero2]
  simp only [View.ld_unit_zero (S := S5000x256) nzero2, View.ld_unit_zero (S := S256x256) nzero2, View.ld_unit_zero (S := S256) nzero1,
    View.ld_unit_zero (S := S256x256) nzero2, View.ld_unit_zero (S := S256x128) nzero2, View.ld_unit_zero (S := S128) nzero1]
  rw [npay_eq, nblk1_eq, nblk2_eq, nblk3_eq, nblk4_eq, nblk5_eq, nblk6_eq]
  have ht : t.val < 10 := by have h := t.isLt; have e : cfg1.N = 10 := N_1; omega
  funext (j : S5000x128.Idx)
  obtain ⟨p, q, rfl⟩ : ∃ (p : Fin 5000) (q : Fin 128), j = ix2 p q := ⟨j 0, j 1, eq_ix2 j⟩
  have hp : 5000 * t.val + p.val < 50000 := by have := p.isLt; omega
  rw [View.read_apply, nemb7 t p q ⟨5000 * t.val + p.val, hp⟩ rfl]
  show mlp3 (nblk V c 0 t : Vec Ideal S5000x256 .f32) (V c main_arg10 : S256x256.Idx → EReal) (V c main_arg11 : S256.Idx → EReal)
      (V c main_arg12 : S256x256.Idx → EReal) (V c main_arg13 : S256.Idx → EReal) (V c main_arg14 : S256x128.Idx → EReal)
      (V c main_arg15 : S128.Idx → EReal) (ix2 p q) = nodesOf V c (ix2 (⟨5000 * t.val + p.val, hp⟩ : Fin 50000) q)
  unfold nodesOf
  exact mlp3_row _ _ _ _ _ _ _ _ p ⟨5000 * t.val + p.val, hp⟩
    (fun k => nblk0_apply V c t (ix2 p k) (ix2 (⟨5000 * t.val + p.val, hp⟩ : Fin 50000) k) rfl rfl) q

/-! ## The blocks tile the result array -/

/-- An index of the result array is in point `t`'s block iff each coordinate is in the block's range on its axis. -/
theorem nmem_blk7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v20).slice (win1_7.rect t)).set ↔ _
  rw [View.set_slice_whole, Rect.mem_set_unit]
  exact Iff.rfl

/-- Row r lies in the block of point r / 5000. -/
theorem ncovered (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  refine ⟨t, flush1_7 t, ?_⟩
  rw [nmem_blk7]
  obtain ⟨-, -, e0, e1⟩ := nidx_rows t
  intro a
  match a with
  | ⟨0, _⟩ => show win1_7.index t 0 * 5000 ≤ (i 0).val ∧ (i 0).val < win1_7.index t 0 * 5000 + 5000; rw [e0, ht]; omega
  | ⟨1, _⟩ => show win1_7.index t 1 * 128 ≤ (i 1).val ∧ (i 1).val < win1_7.index t 1 * 128 + 128; rw [e1]; omega

/-- THE RESULT ARRAY after the call. -/
theorem nodes_final (c : Dev nD) : (ndat V c).arrAt 7 cfg1.N = nodesOf V c :=
  (ndat V c).arrAt_eq_of_cover 7 (nodesOf V c) (fun t _ => nflushed_eq V c t) ncovered

end Cert.KernelIdeal.Hand

end
-- ==== Proof.RefValue.lean ====
/-
  The reference's two networks, read over the extended reals.

  The reference spells a layer as a host `dot_general` plus the bias broadcast along axis 1 and then down the rows, and a
  relu as the maximum with a broadcast zero: `refE` and `refN` are its edge and node networks of an ABSTRACT batch of rows
  (what the rows are — a concatenation of gathered node rows and edge rows; a concatenation of node rows and summed
  messages — plays no part in reading the networks), and each is `DenseLayer.mlp3` of its operands. `xe` and `xn` are the
  two batches as the reference builds them.
-/
import proofs.«180321_j72559177498912_1_alg».proof.Proof.Gen.ReferenceIdeal.Read
import proofs.«180321_j72559177498912_1_alg».proof.Proof.LibDenseLayer

noncomputable section

namespace Cert.ReferenceIdeal.Hand

open Cert.ReferenceIdeal Cert.ReferenceIdeal.Gen
open Idealize.ShloMosaic Idealize.ShloMosaic.ValueIdx Idealize.ShloMosaic.DenseLayer

/-! ## The five products' dimension numbers: one contracted axis, rows on the left, columns on the right -/

theorem rowcol_e0 : RowCol dot_S800000x320_S320x256_S800000x256_1_0_0_1_n_n :=
  ⟨rfl, rfl, Read.lhs_main_v15_0, Read.lhs_main_v15_1, Read.rhs_main_v15_0, Read.rhs_main_v15_1⟩
theorem rowcol_e1 : RowCol dot_S800000x256_S256x256_S800000x256_1_0_0_1_n_n :=
  ⟨rfl, rfl, Read.lhs_main_v20_0, Read.lhs_main_v20_1, Read.rhs_main_v20_0, Read.rhs_main_v20_1⟩
theorem rowcol_e2 : RowCol dot_S800000x256_S256x128_S800000x128_1_0_0_1_n_n :=
  ⟨rfl, rfl, Read.lhs_main_v25_0, Read.lhs_main_v25_1, Read.rhs_main_v25_0, Read.rhs_main_v25_1⟩
theorem rowcol_n01 : RowCol dot_S50000x256_S256x256_S50000x256_1_0_0_1_n_n :=
  ⟨rfl, rfl, Read.lhs_main_v33_0, Read.lhs_main_v33_1, Read.rhs_main_v33_0, Read.rhs_main_v33_1⟩
theorem rowcol_n2 : RowCol dot_S50000x256_S256x128_S50000x128_1_0_0_1_n_n :=
  ⟨rfl, rfl, Read.lhs_main_v43_0, Read.lhs_main_v43_1, Read.rhs_main_v43_0, Read.rhs_main_v43_1⟩

section Terms
variable {F : FTy → Type} [FloatOps F]

/-- The edge network's batch of rows: for each edge, its sender's node row, its receiver's node row (a negative index
    counted from the end), and its own row, side by side. -/
def xe (a0 : (⟨S50000x128, .f32⟩ : BufTy).Contents (Elt F)) (a1 : (⟨S800000x64, .f32⟩ : BufTy).Contents (Elt F)) (a2 a3 : (⟨S800000, .i32⟩ : BufTy).Contents (Elt F)) : (⟨S800000x320, .f32⟩ : BufTy).Contents (Elt F) :=
  (concatenate S800000x320 1 [⟨S800000x128, (Host.gather gather_S50000x128_S800000x1_S800000x128_1_0_n_n_0_1_1128 a0 (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)))⟩, ⟨S800000x128, (Host.gather gather_S50000x128_S800000x1_S800000x128_1_0_n_n_0_1_1128 a0 (broadcastInDim S800000x1 ![0] bcast_S800000_S800000x1_0 (select (cmpi .slt a3 (broadcastInDim S800000 ![] bcast_S_S800000 (constantI S_ 32 0#32))) (addi a3 (broadcastInDim S800000 ![] bcast_S_S800000 (constantI S_ 32 50000#32))) a3)))⟩, ⟨S800000x64, a1⟩] concatenates_S800000x128_S800000x128_S800000x64_S800000x320_d1)

/-- The node network's batch of rows: each node's row beside the sum of the messages `e` of the edges it receives. -/
def xn (a0 : (⟨S50000x128, .f32⟩ : BufTy).Contents (Elt F)) (a3 : (⟨S800000, .i32⟩ : BufTy).Contents (Elt F)) (e : (⟨S800000x128, .f32⟩ : BufTy).Contents (Elt F)) : (⟨S50000x256, .f32⟩ : BufTy).Contents (Elt F) :=
  (concatenate S50000x256 1 [⟨S50000x128, a0⟩, ⟨S50000x128, (Host.scatterAdd scatter_S50000x128_S800000x1_S800000x128_1_0_0_1 (broadcastInDim S50000x128 ![] bcast_S_S50000x128 (constant S_ .f32 0x00000000#32)) (broadcastInDim S800000x1 ![0] bcast_S800000_S800000x1_0 a3) e)⟩] concatenates_S50000x128_S50000x128_S50000x256_d1)

/-- The edge network as the reference spells it. -/
def refE (x : (⟨S800000x320, .f32⟩ : BufTy).Contents (Elt F)) (w0 : (⟨S320x256, .f32⟩ : BufTy).Contents (Elt F)) (b0 : (⟨S256, .f32⟩ : BufTy).Contents (Elt F)) (w1 : (⟨S256x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) : (⟨S800000x128, .f32⟩ : BufTy).Contents (Elt F) :=
  addf (Host.dotGeneral dot_S800000x256_S256x128_S800000x128_1_0_0_1_n_n none (maximumf (addf (Host.dotGeneral dot_S800000x256_S256x256_S800000x256_1_0_0_1_n_n none (maximumf (addf (Host.dotGeneral dot_S800000x320_S320x256_S800000x256_1_0_0_1_n_n none x w0) (broadcastInDim S800000x256 ![0, 1] bcast_S1x256_S800000x256_0_1 (broadcastInDim S1x256 ![1] bcast_S256_S1x256_1 b0))) (broadcastInDim S800000x256 ![] bcast_S_S800000x256 (constant S_ .f32 0x00000000#32))) w1) (broadcastInDim S800000x256 ![0, 1] bcast_S1x256_S800000x256_0_1 (broadcastInDim S1x256 ![1] bcast_S256_S1x256_1 b1))) (broadcastInDim S800000x256 ![] bcast_S_S800000x256 (constant S_ .f32 0x00000000#32))) w2) (broadcastInDim S800000x128 ![0, 1] bcast_S1x128_S800000x128_0_1 (broadcastInDim S1x128 ![1] bcast_S128_S1x128_1 b2))

/-- The node network as the reference spells it. -/
def refN (x : (⟨S50000x256, .f32⟩ : BufTy).Contents (Elt F)) (w0 : (⟨S256x256, .f32⟩ : BufTy).Contents (Elt F)) (b0 : (⟨S256, .f32⟩ : BufTy).Contents (Elt F)) (w1 : (⟨S256x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) : (⟨S50000x128, .f32⟩ : BufTy).Contents (Elt F) :=
  addf (Host.dotGeneral dot_S50000x256_S256x128_S50000x128_1_0_0_1_n_n none (maximumf (addf (Host.dotGeneral dot_S50000x256_S256x256_S50000x256_1_0_0_1_n_n none (maximumf (addf (Host.dotGeneral dot_S50000x256_S256x256_S50000x256_1_0_0_1_n_n none x w0) (broadcastInDim S50000x256 ![0, 1] bcast_S1x256_S50000x256_0_1 (broadcastInDim S1x256 ![1] bcast_S256_S1x256_1 b0))) (broadcastInDim S50000x256 ![] bcast_S_S50000x256 (constant S_ .f32 0x00000000#32))) w1) (broadcastInDim S50000x256 ![0, 1] bcast_S1x256_S50000x256_0_1 (broadcastInDim S1x256 ![1] bcast_S256_S1x256_1 b1))) (broadcastInDim S50000x256 ![] bcast_S_S50000x256 (constant S_ .f32 0x00000000#32))) w2) (broadcastInDim S50000x128 ![0, 1] bcast_S1x128_S50000x128_0_1 (broadcastInDim S1x128 ![1] bcast_S128_S1x128_1 b2))

end Terms

/-- The reference's edge network is the three-layer network of its operands. -/
theorem refE_eq (x : (⟨S800000x320, .f32⟩ : BufTy).Contents (Elt Ideal)) (w0 : (⟨S320x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    refE (F := Ideal) x w0 b0 w1 b1 w2 b2 = mlp3 x w0 b0 w1 b1 w2 b2 := by
  unfold refE mlp3
  -- innermost layer first: each product-plus-bias is an affine map, each maximum with zero a relu
  rw [host_layer _ rowcol_e0 none x w0 b0 _ _, host_relu,
    host_layer _ rowcol_e1 none _ w1 b1 _ _, host_relu,
    host_layer _ rowcol_e2 none _ w2 b2 _ _]

/-- The reference's node network is the three-layer network of its operands. -/
theorem refN_eq (x : (⟨S50000x256, .f32⟩ : BufTy).Contents (Elt Ideal)) (w0 : (⟨S256x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    refN (F := Ideal) x w0 b0 w1 b1 w2 b2 = mlp3 x w0 b0 w1 b1 w2 b2 := by
  unfold refN mlp3
  -- innermost layer first: each product-plus-bias is an affine map, each maximum with zero a relu
  rw [host_layer _ rowcol_n01 none x w0 b0 _ _, host_relu,
    host_layer _ rowcol_n01 none _ w1 b1 _ _, host_relu,
    host_layer _ rowcol_n2 none _ w2 b2 _ _]

end Cert.ReferenceIdeal.Hand

end
-- ==== Proof.Bridge.lean ====
/-
  The two programs' results are one function of the arguments, over the extended reals.

  The edge outputs are the three-layer network `mlp3` of the batch of edge rows with the edge parameters; the node outputs
  are `mlp3` of the batch of node rows — built from the edge outputs — with the node parameters. The kernel program's two
  calls leave exactly these in its result arrays (each call's final array is the network of the array of rows it finds,
  and the host stretches build the rows); the reference's composed term is exactly these in the host's spelling. The two
  programs build the batches of rows by the same host operations, so on agreeing arguments the batches are equal.
-/
import proofs.«180321_j72559177498912_1_alg».proof.Defs
import proofs.«180321_j72559177498912_1_alg».proof.Proof.HostValue
import proofs.«180321_j72559177498912_1_alg».proof.Proof.EdgeValue
import proofs.«180321_j72559177498912_1_alg».proof.Proof.NodeValue
import proofs.«180321_j72559177498912_1_alg».proof.Proof.RefValue
import proofs.«180321_j72559177498912_1_alg».proof.Proof.Gen.ReferenceIdeal.Run

noncomputable section

namespace Cert.Proof.Bridge

open Idealize.ShloMosaic Idealize.ShloMosaic.TcCoe Idealize.SL.Sem Idealize.ShloMosaic.DenseLayer

/-! ## The batches of rows are built alike -/

section Same
variable {F : FTy → Type} [FloatOps F]

theorem xe_same (a0 : (⟨Cert.KernelIdeal.S50000x128, .f32⟩ : BufTy).Contents (Elt F)) (a1 : (⟨Cert.KernelIdeal.S800000x64, .f32⟩ : BufTy).Contents (Elt F))
    (a2 a3 : (⟨Cert.KernelIdeal.S800000, .i32⟩ : BufTy).Contents (Elt F)) :
    Cert.ReferenceIdeal.Hand.xe (F := F) a0 a1 a2 a3 = Cert.KernelIdeal.Hand.xe (F := F) a0 a1 a2 a3 := rfl

theorem xn_same (a0 : (⟨Cert.KernelIdeal.S50000x128, .f32⟩ : BufTy).Contents (Elt F)) (a3 : (⟨Cert.KernelIdeal.S800000, .i32⟩ : BufTy).Contents (Elt F))
    (e : (⟨Cert.KernelIdeal.S800000x128, .f32⟩ : BufTy).Contents (Elt F)) :
    Cert.ReferenceIdeal.Hand.xn (F := F) a0 a3 e = Cert.KernelIdeal.Hand.xn (F := F) a0 a3 e := rfl

end Same

/-! ## The two results as functions of the kernel program's launch memory -/

section Results
open Cert.KernelIdeal Cert.KernelIdeal.Gen Cert.KernelIdeal.Hand

variable (m : (ℓ : Loc nD τ sig) → Buf (Elt Ideal) ℓ) (ρ : Dev nD → PrngReg)

/-- The edge outputs. -/
def edgesG (c : Dev nD) : S800000x128.Idx → EReal :=
  mlp3 (xe (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The node outputs. -/
def nodesG (c : Dev nD) : S50000x128.Idx → EReal :=
  mlp3 (xn (F := Ideal) (m ((c.tc : Thread nD τ).loc main_arg0)) (m ((c.tc : Thread nD τ).loc main_arg3)) (edgesG m c)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The edge network's call leaves the edge outputs. -/
theorem edges_eq (c : Dev nD) : (edat (U1 m ρ) c).arrAt 7 cfg0.N = edgesG m c := by
  rw [edges_final (U1 m ρ) c]
  unfold edgesOf edgesG
  rw [U1_rows m ρ c, U1_arg4 m ρ c, U1_arg5 m ρ c, U1_arg6 m ρ c, U1_arg7 m ρ c, U1_arg8 m ρ c, U1_arg9 m ρ c]

/-- The node network's call leaves the node outputs. -/
theorem nodes_eq (c : Dev nD) : (ndat (U3 m ρ) c).arrAt 7 cfg1.N = nodesG m c := by
  rw [nodes_final (U3 m ρ) c]
  unfold nodesOf nodesG
  rw [U3_rows m ρ c, U3_arg10 m ρ c, U3_arg11 m ρ c, U3_arg12 m ρ c, U3_arg13 m ρ c, U3_arg14 m ρ c, U3_arg15 m ρ c, edges_eq m ρ c]

/-- THE KERNEL PROGRAM'S RUN: both results at their functions of the arguments, the arguments as launched. -/
theorem kernel_run : θ_run defs (onTc (τ := τ) (main (F := Ideal))) ⟨m, fun _ => 0, ρ⟩ (fun r => ∀ c : Dev nD,
      r.2.mem ((c.tc : Thread nD τ).loc main_v20) = nodesG m c
      ∧ r.2.mem ((c.tc : Thread nD τ).loc main_v15) = edgesG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (nodes_eq m ρ c), (h c).2.1.trans (edges_eq m ρ c), (h c).2.2⟩)
    (run_results (F := Ideal) m ρ)

end Results

/-! ## The reference's composed term -/

section Ref
open Cert.ReferenceIdeal Cert.ReferenceIdeal.Gen Cert.ReferenceIdeal.Hand

variable (m : (ℓ : Loc nD τ sig) → Buf (Elt Ideal) ℓ) (ρ : Dev nD → PrngReg)

/-- The reference's edge outputs, as `mlp3`. -/
def edgesR (c : Dev nD) : S800000x128.Idx → EReal :=
  mlp3 (xe (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The reference's node outputs, as `mlp3`. -/
def nodesR (c : Dev nD) : S50000x128.Idx → EReal :=
  mlp3 (xn (F := Ideal) (m ((c.tc : Thread nD τ).loc main_arg0)) (m ((c.tc : Thread nD τ).loc main_arg3)) (edgesR m c)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- THE REFERENCE'S RUN: both results as `mlp3`s of its arguments, the arguments as launched. -/
theorem ref_run : θ_run defs (onTc (τ := τ) (main (F := Ideal))) ⟨m, fun _ => 0, ρ⟩ (fun r => ∀ c : Dev nD,
      r.2.mem ((c.tc : Thread nD τ).loc main_v46) = nodesR m c
      ∧ r.2.mem ((c.tc : Thread nD τ).loc main_v28) = edgesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r h c => ⟨(h c).1.trans ?_, (h c).2.1.trans ?_, (h c).2.2⟩) (Cert.ReferenceIdeal.Value.run (F := Ideal) m ρ)
  · show refN (F := Ideal) (xn (F := Ideal) (m ((c.tc : Thread nD τ).loc main_arg0)) (m ((c.tc : Thread nD τ).loc main_arg3)) (refE (F := Ideal) (xe (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = _
    rw [refN_eq, refE_eq]
    rfl
  · show refE (F := Ideal) (xe (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = _
    rw [refE_eq]
    rfl

end Ref

end Cert.Proof.Bridge

end
-- ==== Proof.lean ====
/-
  A graph network's message-passing step — an edge network on the concatenated sender, receiver and edge rows; a sum of its
  outputs over each node's incoming edges; a node network on the node rows beside those sums — computed by two kernel
  calls of one three-layer-network kernel, against the same step written with host matrix products.

  Over the extended reals the two programs agree entry by entry. Both build the batches of rows by the same host
  operations (gathers, concatenations, a scatter-add). A kernel call computes its network block of rows by block of rows:
  every operand of a product narrowed to bf16 (the identity over the reals), every product accumulated into zero, the
  bias laid along the rows, a relu as the maximum with zero; row p of the network depends on row p of the batch only,
  and the blocks tile the batch, so the call's result array is the network of the whole batch — which is what the host's
  `dot_general`, broadcast bias and maximum compute. No law of real arithmetic beyond `0 + x = x` is used, so nothing is
  asked of the inputs' finiteness. The frames: each kernel call's body reads its staged blocks and overwrites its result
  block, touching nothing else, so every run terminates with the arguments as launched; the reference is host operations
  only.
-/
import proofs.«180321_j72559177498912_1_alg».proof.Defs
import proofs.«180321_j72559177498912_1_alg».proof.Proof.Gen.Kernel
import proofs.«180321_j72559177498912_1_alg».proof.Proof.Gen.KernelIdeal
import proofs.«180321_j72559177498912_1_alg».proof.Proof.Gen.ReferenceIdeal
import proofs.«180321_j72559177498912_1_alg».proof.Proof.Gen.Pre_finite_inputs
import proofs.«180321_j72559177498912_1_alg».proof.Proof.Gen.ReferenceIdeal.Run
import proofs.«180321_j72559177498912_1_alg».proof.Proof.Gen.ReferenceIdeal.Read
import proofs.«180321_j72559177498912_1_alg».proof.Proof.MainRun
import proofs.«180321_j72559177498912_1_alg».proof.Proof.KernelBits.MainRun
import proofs.«180321_j72559177498912_1_alg».proof.Proof.Bridge
import Idealize.ShloMosaic.Adequacy
import Idealize.ShloMosaic.Init

noncomputable section

namespace Cert.Proof

open Idealize.ShloMosaic Idealize.SL.Sem

/-- The kernel program, as printed, runs and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the node outputs and the edge outputs at one function
    of the arguments: the batches of rows are built alike, and each network is `mlp3` on both sides. -/
theorem algebraic : Cert.algebraic_KernelIdeal_ReferenceIdeal := by
  intro m ρ m' ρ' _ hagree
  refine ⟨fun c => Cert.Proof.Bridge.nodesG m c, fun c => Cert.Proof.Bridge.edgesG m c, Cert.Proof.Bridge.kernel_run m ρ, ?_⟩
  refine (θ_run Cert.ReferenceIdeal.defs _ _).mono (fun r h c => ?_) (Cert.Proof.Bridge.ref_run m' ρ')
  obtain ⟨h0, h1, h2, h3, h4, h5, h6, h7, h8, h9, h10, h11, h12, h13, h14, h15⟩ := hagree c
  have he : Cert.Proof.Bridge.edgesR m' c = Cert.Proof.Bridge.edgesG m c := by
    unfold Cert.Proof.Bridge.edgesR Cert.Proof.Bridge.edgesG
    rw [h0, h1, h2, h3, h4, h5, h6, h7, h8, h9, Cert.Proof.Bridge.xe_same]
  have hn : Cert.Proof.Bridge.nodesR m' c = Cert.Proof.Bridge.nodesG m c := by
    unfold Cert.Proof.Bridge.nodesR Cert.Proof.Bridge.nodesG
    rw [he, h0, h3, h10, h11, h12, h13, h14, h15, Cert.Proof.Bridge.xn_same]
  exact ⟨(h c).1.trans hn, (h c).2.1.trans he, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
